-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_8000000" .f32 0x340637BD#32 ((1 / 8000000 : ℝ) : EReal)
  ∧ IdealRules.named_const.Statement Cert.KernelIdeal.κ "inv_6000000" .f32 0x3432F4FC#32 ((1 / 6000000 : ℝ) : EReal)
  ∧ IdealRules.named_const.Statement Cert.KernelIdeal.κ "inv_6000000" .f32 0x3432F4FC#32 ((1 / 6000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v161) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x4 : Shape := ⟨2, ![2000000, 4]⟩
abbrev S2000000x3 : Shape := ⟨2, ![2000000, 3]⟩
abbrev S5 : Shape := ⟨1, ![5]⟩
abbrev S2000000 : Shape := ⟨1, ![2000000]⟩
abbrev S_ : Shape := ⟨0, ![]⟩

class Facts : Prop where
  bcast_S_S2000000x4 : S_.BroadcastsInDim S2000000x4 (![] : Fin 0 → Fin S2000000x4.rank)
  reducesTo_S2000000x4_S_d0_1 : S2000000x4.ReducesTo [0, 1] S_
  h_S_ : 0 < S_.numel
  bcast_S_S2000000x3 : S_.BroadcastsInDim S2000000x3 (![] : Fin 0 → Fin S2000000x3.rank)
  reducesTo_S2000000x3_S_d0_1 : S2000000x3.ReducesTo [0, 1] S_
  bcast_S_S5 : S_.BroadcastsInDim S5 (![] : Fin 0 → Fin S5.rank)
  reducesTo_S5_S_d0 : S5.ReducesTo [0] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg4 : IVec S2000000 32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_c_6 : IVec S_ 32 := constantI S_ 32 0#32
  let main_v19 : IVec S2000000 32 := broadcastInDim S2000000 ![] bcast_S_S2000000 main_c_6
  let main_v20 : IVec S2000000 1 := cmpi .sge main_arg4 main_v19
  let main_c_7 : IVec S_ 1 := constantI S_ 1 1#1
  let main_v21 : IVec S_ 1 := (fun x v => Host.reduce IntOp.andi x v reducesTo_S2000000_S_d0 h_S_) main_v20 main_c_7
  let main_v22 : IVec S_ 1 := andi main_v18 main_v21
  let main_c_8 : IVec S_ 32 := constantI S_ 32 5#32
  let main_v23 : IVec S2000000 32 := broadcastInDim S2000000 ![] bcast_S_S2000000 main_c_8
  let main_v24 : IVec S2000000 1 := cmpi .slt main_arg4 main_v23
  let main_c_9 : IVec S_ 1 := constantI S_ 1 1#1
  let main_v25 : IVec S_ 1 := (fun x v => Host.reduce IntOp.andi x v reducesTo_S2000000_S_d0 h_S_) main_v24 main_c_9
  let main_v26 : IVec S_ 1 := andi main_v22 main_v25
  main_v26

def fn {F : FTy → Type} [FloatOps F] (main_arg0 : FVec F S2000000x4 .f32) (main_arg1 : FVec F S2000000x3 .f32) (main_arg2 : FVec F S2000000x3 .f32) (main_arg3 : FVec F S5 .f32) (main_arg4 : IVec S2000000 32) (main_arg5 : IVec S2000000 32) (main_arg6 : IVec S2000000 32) : IVec S_ 1 :=
  let main_v0 : FVec F S2000000x4 .f32 := Host.absf main_arg0
  let main_cst : FVec F S_ .f32 := constant S_ .f32 0x7F800000#32
  let main_v1 : FVec F S2000000x4 .f32 := broadcastInDim S2000000x4 ![] bcast_S_S2000000x4 main_cst
  let main_v2 : IVec S2000000x4 1 := cmpf .olt main_v0 main_v1
  let main_c : IVec S_ 1 := constantI S_ 1 1#1
  let main_v3 : IVec S_ 1 := (fun x v => Host.reduce IntOp.andi x v reducesTo_S2000000x4_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S2000000x3 .f32 := Host.absf main_arg2
  let main_cst_2 : FVec F S_ .f32 := constant S_ .f32 0x7F800000#32
  let main_v10 : FVec F S2000000x3 .f32 := broadcastInDim S2000000x3 ![] bcast_S_S2000000x3 main_cst_2
  let main_v11 : IVec S2000000x3 1 := cmpf .olt main_v9 main_v10
  let main_c_3 : IVec S_ 1 := constantI S_ 1 1#1
  let main_v12 : IVec S_ 1 := (fun x v => Host.reduce IntOp.andi x v reducesTo_S2000000x3_S_d0_1 h_S_) main_v11 main_c_3
  let main_v13 : IVec S_ 1 := andi main_v8 main_v12
  let main_v14 : FVec F S5 .f32 := Host.absf main_arg3
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg4 main_v13 main_v16
-- ==== Kernel.lean ====
abbrev S2000000x4 : Shape := ⟨2, ![2000000, 4]⟩
abbrev S2000000x3 : Shape := ⟨2, ![2000000, 3]⟩
abbrev S5 : Shape := ⟨1, ![5]⟩
abbrev S2000000 : Shape := ⟨1, ![2000000]⟩
abbrev S2000000x1 : Shape := ⟨2, ![2000000, 1]⟩
abbrev S1x128 : Shape := ⟨2, ![1, 128]⟩
abbrev S4000x4 : Shape := ⟨2, ![4000, 4]⟩
abbrev S4000x3 : Shape := ⟨2, ![4000, 3]⟩
abbrev S4000x1 : Shape := ⟨2, ![4000, 1]⟩
abbrev S1 : Shape := ⟨1, ![1]⟩
abbrev S4000 : Shape := ⟨1, ![4000]⟩
abbrev S1x1 : Shape := ⟨2, ![1, 1]⟩
abbrev S_ : Shape := ⟨0, ![]⟩

abbrev nBuf : Space → Nat
  | .hbm => 23
  | .vmem => 19
  | .smem => 0
  | _ => 0

abbrev bufTy : (tb : Table) → Fin (tcTables nBuf tb) → BufTy
  | .hbm, ⟨0, _⟩ => ⟨S2000000x4, .f32⟩
  | .hbm, ⟨1, _⟩ => ⟨S2000000x3, .f32⟩
  | .hbm, ⟨2, _⟩ => ⟨S2000000x3, .f32⟩
  | .hbm, ⟨3, _⟩ => ⟨S5, .f32⟩
  | .hbm, ⟨4, _⟩ => ⟨S2000000, .i32⟩
  | .hbm, ⟨5, _⟩ => ⟨S2000000, .i32⟩
  | .hbm, ⟨6, _⟩ => ⟨S2000000, .i32⟩
  | .hbm, ⟨7, _⟩ => ⟨S2000000x1, .i32⟩
  | .hbm, ⟨8, _⟩ => ⟨S2000000x1, .i32⟩
  | .hbm, ⟨9, _⟩ => ⟨S2000000x1, .i32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x1, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S4000x4, .f32⟩
  | .local _ .vmem, ⟨1, _⟩ => ⟨S4000x4, .f32⟩
  | .local _ .vmem, ⟨2, _⟩ => ⟨S4000x3, .f32⟩
  | .local _ .vmem, ⟨3, _⟩ => ⟨S4000x3, .f32⟩
  | .local _ .vmem, ⟨4, _⟩ => ⟨S4000x3, .f32⟩
  | .local _ .vmem, ⟨5, _⟩ => ⟨S4000x3, .f32⟩
  | .local _ .vmem, ⟨6, _⟩ => ⟨S5, .f32⟩
  | .local _ .vmem, ⟨7, _⟩ => ⟨S4000x1, .i32⟩
  | .local _ .vmem, ⟨8, _⟩ => ⟨S4000x1, .i32⟩
  | .local _ .vmem, ⟨9, _⟩ => ⟨S4000x1, .i32⟩
  | .local _ .vmem, ⟨10, _⟩ => ⟨S4000x1, .i32⟩
  | .local _ .vmem, ⟨11, _⟩ => ⟨S4000x1, .i32⟩
  | .local _ .vmem, ⟨12, _⟩ => ⟨S4000x1, .i32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | _, _ => ⟨S2000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![500], ![false]⟩

def k0_cond2 (i : grid0.Coords) : BitVec 1 :=
  let arg0 : BitVec 32 := BitVec.ofNat 32 (i 0).val
  let c499_i32 : BitVec 32 := 499#32
  let v196 : BitVec 1 := Scalar.cmpi .eq arg0 c499_i32
  let v197 : BitVec 32 := Scalar.extui v196
  let c0_i32_68 : BitVec 32 := 0#32
  let v198 : BitVec 1 := Scalar.cmpi .ne v197 c0_i32_68
  v198

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4000x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  shapeCasts_S2000000_S2000000x1 : S2000000.ShapeCasts S2000000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S5_S1_0 : ∀ a, (![0] : Fin 1 → Nat) a + S1.size a ≤ S5.size a
  h_S1 : 0 < S1.numel
  inpos_S1_p0 : ∀ a, (![0] : Fin 1 → Nat) a < S1.size a
  inb_S5_S1_1 : ∀ a, (![1] : Fin 1 → Nat) a + S1.size a ≤ S5.size a
  inb_S5_S1_2 : ∀ a, (![2] : Fin 1 → Nat) a + S1.size a ≤ S5.size a
  inb_S5_S1_3 : ∀ a, (![3] : Fin 1 → Nat) a + S1.size a ≤ S5.size a
  inb_S5_S1_4 : ∀ a, (![4] : Fin 1 → Nat) a + S1.size a ≤ S5.size a
  inb_S4000x4_S4000x4_0_0 : ∀ a, (![0, 0] : Fin 2 → Nat) a + S4000x4.size a ≤ S4000x4.size a
  h_S4000x4 : 0 < S4000x4.numel
  iota_S4000x4_d1_w32 : S4000x4.Iotas .tc 32 [1]
  broadcasts_S4000x1_S4000x4 : S4000x1.Broadcasts S4000x4
  natLt_1_32 : 1 < 32
  reduces_S4000x4_S4000 : S4000x4.Reduces [1] S4000
  shapeCasts_S4000_S4000x1 : S4000.ShapeCasts S4000x1
  reduces_S4000x1_S1 : S4000x1.Reduces [0] S1
  shapeCasts_S1_S1x1 : S1.ShapeCasts S1x1
  inb_S4000x3_S4000x3_0_0 : ∀ a, (![0, 0] : Fin 2 → Nat) a + S4000x3.size a ≤ S4000x3.size a
  h_S4000x3 : 0 < S4000x3.numel
  iota_S4000x3_d1_w32 : S4000x3.Iotas .tc 32 [1]
  broadcasts_S4000x1_S4000x3 : S4000x1.Broadcasts S4000x3
  reduces_S4000x3_S4000 : S4000x3.Reduces [1] S4000
  shapeCasts_S1x1_S1x1 : S1x1.ShapeCasts S1x1
  broadcasts_S1x1_S1x128 : S1x1.Broadcasts S1x128
  slices_S1x128_S1x1_0_0 : S1x128.Slices ![0, 0] S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x4.size a ≤ S2000000x4.size a
  hwx0_0 : ∀ i : grid0.Coords, EltTy.bits .f32 = 32 ∨ (Rect.block (s := S2000000x4) S4000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x3.size a ≤ S2000000x3.size a
  hwx0_1 : ∀ i : grid0.Coords, EltTy.bits .f32 = 32 ∨ (Rect.block (s := S2000000x3) S4000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S2000000x3.size a
  hwx0_2 : ∀ i : grid0.Coords, EltTy.bits .f32 = 32 ∨ (Rect.block (s := S2000000x3) S4000x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5.size a ≤ S5.size a
  hwx0_3 : ∀ i : grid0.Coords, EltTy.bits .f32 = 32 ∨ (Rect.block (s := S5) S5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S2000000x1.size a
  hwx0_4 : ∀ i : grid0.Coords, EltTy.bits .i32 = 32 ∨ (Rect.block (s := S2000000x1) S4000x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x1.size a ≤ S2000000x1.size a
  hwx0_5 : ∀ i : grid0.Coords, EltTy.bits .i32 = 32 ∨ (Rect.block (s := S2000000x1) S4000x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x1.size a ≤ S2000000x1.size a
  hwx0_6 : ∀ i : grid0.Coords, EltTy.bits .i32 = 32 ∨ (Rect.block (s := S2000000x1) S4000x1.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)

variable [Facts₀]

abbrev win0_0 : Pipeline.Window sig grid0 :=
  Pipeline.Window.ofSpec (Memref.whole main_arg0) S4000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S4000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1x128.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3_2) S1x128.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun i => !(k0_cond2 i == 1#1) | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S2000000x4 : Shape := ⟨2, ![2000000, 4]⟩
abbrev S2000000x3 : Shape := ⟨2, ![2000000, 3]⟩
abbrev S5 : Shape := ⟨1, ![5]⟩
abbrev S2000000 : Shape := ⟨1, ![2000000]⟩
abbrev S_ : Shape := ⟨0, ![]⟩
abbrev S4 : Shape := ⟨1, ![4]⟩
abbrev S1x4 : Shape := ⟨2, ![1, 4]⟩
abbrev S2000000x1 : Shape := ⟨2, ![2000000, 1]⟩
abbrev S3 : Shape := ⟨1, ![3]⟩
abbrev S1x3 : Shape := ⟨2, ![1, 3]⟩

abbrev nBuf : Space → Nat
  | .hbm => 230
  | .vmem => 0
  | .smem => 0
  | _ => 0

abbrev hbmTy0_0 (i : Nat) : BufTy := match i % 128 with
  | 0 => ⟨S2000000x4, .f32⟩
  | 1 => ⟨S2000000x3, .f32⟩
  | 2 => ⟨S2000000x3, .f32⟩
  | 3 => ⟨S5, .f32⟩
  | 4 => ⟨S2000000, .i32⟩
  | 5 => ⟨S2000000, .i32⟩
  | 6 => ⟨S2000000, .i32⟩
  | 7 => ⟨S2000000x4, .f32⟩
  | 8 => ⟨S2000000x4, .f32⟩
  | 9 => ⟨S_, .f32⟩
  | 10 => ⟨S2000000x4, .f32⟩
  | 11 => ⟨S2000000x4, .f32⟩
  | 12 => ⟨S_, .f32⟩
  | 13 => ⟨S2000000x4, .f32⟩
  | 14 => ⟨S2000000x4, .f32⟩
  | 15 => ⟨S4, .i32⟩
  | 16 => ⟨S1x4, .i32⟩
  | 17 => ⟨S2000000x1, .i32⟩
  | 18 => ⟨S2000000x4, .i32⟩
  | 19 => ⟨S2000000x4, .i32⟩
  | 20 => ⟨S2000000x4, .i1⟩
  | 21 => ⟨S2000000x4, .f32⟩
  | 22 => ⟨S_, .f32⟩
  | 23 => ⟨S2000000x4, .f32⟩
  | 24 => ⟨S2000000x4, .i1⟩
  | 25 => ⟨S_, .f32⟩
  | 26 => ⟨S2000000x4, .f32⟩
  | 27 => ⟨S2000000x4, .f32⟩
  | 28 => ⟨S2000000x4, .f32⟩
  | 29 => ⟨S_, .f32⟩
  | 30 => ⟨S2000000x4, .f32⟩
  | 31 => ⟨S2000000x4, .f32⟩
  | 32 => ⟨S_, .f32⟩
  | 33 => ⟨S2000000x4, .f32⟩
  | 34 => ⟨S2000000x4, .f32⟩
  | 35 => ⟨S_, .f32⟩
  | 36 => ⟨S2000000x4, .f32⟩
  | 37 => ⟨S2000000x4, .i1⟩
  | 38 => ⟨S_, .f32⟩
  | 39 => ⟨S_, .f32⟩
  | 40 => ⟨S2000000x4, .f32⟩
  | 41 => ⟨S2000000x4, .f32⟩
  | 42 => ⟨S2000000x4, .f32⟩
  | 43 => ⟨S_, .f32⟩
  | 44 => ⟨S2000000x4, .f32⟩
  | 45 => ⟨S2000000x4, .f32⟩
  | 46 => ⟨S2000000x4, .f32⟩
  | 47 => ⟨S2000000x4, .f32⟩
  | 48 => ⟨S_, .f32⟩
  | 49 => ⟨S2000000x4, .f32⟩
  | 50 => ⟨S2000000x4, .f32⟩
  | 51 => ⟨S_, .f32⟩
  | 52 => ⟨S2000000x4, .f32⟩
  | 53 => ⟨S2000000x4, .f32⟩
  | 54 => ⟨S_, .f32⟩
  | 55 => ⟨S2000000x4, .f32⟩
  | 56 => ⟨S2000000x4, .f32⟩
  | 57 => ⟨S2000000x4, .f32⟩
  | 58 => ⟨S2000000x4, .f32⟩
  | 59 => ⟨S2000000x4, .f32⟩
  | 60 => ⟨S2000000x4, .f32⟩
  | 61 => ⟨S2000000x4, .f32⟩
  | 62 => ⟨S2000000x4, .f32⟩
  | 63 => ⟨S2000000x4, .f32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i32⟩
  | 70 => ⟨S2000000, .i32⟩
  | 71 => ⟨S2000000x1, .i32⟩
  | 72 => ⟨S2000000, .f32⟩
  | 73 => ⟨S2000000x1, .f32⟩
  | 74 => ⟨S2000000x4, .f32⟩
  | 75 => ⟨S2000000x4, .f32⟩
  | 76 => ⟨S_, .f32⟩
  | 77 => ⟨S_, .f32⟩
  | 78 => ⟨S_, .f32⟩
  | 79 => ⟨S_, .f32⟩
  | 80 => ⟨S2000000x3, .f32⟩
  | 81 => ⟨S2000000x3, .f32⟩
  | 82 => ⟨S_, .f32⟩
  | 83 => ⟨S2000000x3, .f32⟩
  | 84 => ⟨S2000000x3, .f32⟩
  | 85 => ⟨S_, .f32⟩
  | 86 => ⟨S2000000x3, .f32⟩
  | 87 => ⟨S2000000x3, .f32⟩
  | 88 => ⟨S3, .i32⟩
  | 89 => ⟨S1x3, .i32⟩
  | 90 => ⟨S2000000x1, .i32⟩
  | 91 => ⟨S2000000x3, .i32⟩
  | 92 => ⟨S2000000x3, .i32⟩
  | 93 => ⟨S2000000x3, .i1⟩
  | 94 => ⟨S2000000x3, .f32⟩
  | 95 => ⟨S_, .f32⟩
  | 96 => ⟨S2000000x3, .f32⟩
  | 97 => ⟨S2000000x3, .i1⟩
  | 98 => ⟨S_, .f32⟩
  | 99 => ⟨S2000000x3, .f32⟩
  | 100 => ⟨S2000000x3, .f32⟩
  | 101 => ⟨S2000000x3, .f32⟩
  | 102 => ⟨S_, .f32⟩
  | 103 => ⟨S2000000x3, .f32⟩
  | 104 => ⟨S2000000x3, .f32⟩
  | 105 => ⟨S_, .f32⟩
  | 106 => ⟨S2000000x3, .f32⟩
  | 107 => ⟨S2000000x3, .f32⟩
  | 108 => ⟨S_, .f32⟩
  | 109 => ⟨S2000000x3, .f32⟩
  | 110 => ⟨S2000000x3, .i1⟩
  | 111 => ⟨S_, .f32⟩
  | 112 => ⟨S_, .f32⟩
  | 113 => ⟨S2000000x3, .f32⟩
  | 114 => ⟨S2000000x3, .f32⟩
  | 115 => ⟨S2000000x3, .f32⟩
  | 116 => ⟨S_, .f32⟩
  | 117 => ⟨S2000000x3, .f32⟩
  | 118 => ⟨S2000000x3, .f32⟩
  | 119 => ⟨S2000000x3, .f32⟩
  | 120 => ⟨S2000000x3, .f32⟩
  | 121 => ⟨S_, .f32⟩
  | 122 => ⟨S2000000x3, .f32⟩
  | 123 => ⟨S2000000x3, .f32⟩
  | 124 => ⟨S_, .f32⟩
  | 125 => ⟨S2000000x3, .f32⟩
  | 126 => ⟨S2000000x3, .f32⟩
  | 127 => ⟨S_, .f32⟩
  | _ => ⟨S2000000x4, .f32⟩

abbrev hbmTy0_1 (i : Nat) : BufTy := match i % 128 with
  | 0 => ⟨S2000000x3, .f32⟩
  | 1 => ⟨S2000000x3, .f32⟩
  | 2 => ⟨S2000000x3, .f32⟩
  | 3 => ⟨S2000000x3, .f32⟩
  | 4 => ⟨S2000000x3, .f32⟩
  | 5 => ⟨S2000000x3, .f32⟩
  | 6 => ⟨S2000000x3, .f32⟩
  | 7 => ⟨S2000000x3, .f32⟩
  | 8 => ⟨S2000000x3, .f32⟩
  | 9 => ⟨S_, .i32⟩
  | 10 => ⟨S2000000, .i32⟩
  | 11 => ⟨S2000000, .i1⟩
  | 12 => ⟨S_, .i32⟩
  | 13 => ⟨S2000000, .i32⟩
  | 14 => ⟨S2000000, .i32⟩
  | 15 => ⟨S2000000, .i32⟩
  | 16 => ⟨S2000000x1, .i32⟩
  | 17 => ⟨S2000000, .f32⟩
  | 18 => ⟨S2000000x1, .f32⟩
  | 19 => ⟨S2000000x3, .f32⟩
  | 20 => ⟨S2000000x3, .f32⟩
  | 21 => ⟨S_, .f32⟩
  | 22 => ⟨S_, .f32⟩
  | 23 => ⟨S_, .f32⟩
  | 24 => ⟨S_, .f32⟩
  | 25 => ⟨S2000000x3, .f32⟩
  | 26 => ⟨S2000000x3, .f32⟩
  | 27 => ⟨S_, .f32⟩
  | 28 => ⟨S2000000x3, .f32⟩
  | 29 => ⟨S2000000x3, .f32⟩
  | 30 => ⟨S_, .f32⟩
  | 31 => ⟨S2000000x3, .f32⟩
  | 32 => ⟨S2000000x3, .f32⟩
  | 33 => ⟨S3, .i32⟩
  | 34 => ⟨S1x3, .i32⟩
  | 35 => ⟨S2000000x1, .i32⟩
  | 36 => ⟨S2000000x3, .i32⟩
  | 37 => ⟨S2000000x3, .i32⟩
  | 38 => ⟨S2000000x3, .i1⟩
  | 39 => ⟨S2000000x3, .f32⟩
  | 40 => ⟨S_, .f32⟩
  | 41 => ⟨S2000000x3, .f32⟩
  | 42 => ⟨S2000000x3, .i1⟩
  | 43 => ⟨S_, .f32⟩
  | 44 => ⟨S2000000x3, .f32⟩
  | 45 => ⟨S2000000x3, .f32⟩
  | 46 => ⟨S2000000x3, .f32⟩
  | 47 => ⟨S_, .f32⟩
  | 48 => ⟨S2000000x3, .f32⟩
  | 49 => ⟨S2000000x3, .f32⟩
  | 50 => ⟨S_, .f32⟩
  | 51 => ⟨S2000000x3, .f32⟩
  | 52 => ⟨S2000000x3, .f32⟩
  | 53 => ⟨S_, .f32⟩
  | 54 => ⟨S2000000x3, .f32⟩
  | 55 => ⟨S2000000x3, .i1⟩
  | 56 => ⟨S_, .f32⟩
  | 57 => ⟨S_, .f32⟩
  | 58 => ⟨S2000000x3, .f32⟩
  | 59 => ⟨S2000000x3, .f32⟩
  | 60 => ⟨S2000000x3, .f32⟩
  | 61 => ⟨S_, .f32⟩
  | 62 => ⟨S2000000x3, .f32⟩
  | 63 => ⟨S2000000x3, .f32⟩
  | 64 => ⟨S2000000x3, .f32⟩
  | 65 => ⟨S2000000x3, .f32⟩
  | 66 => ⟨S_, .f32⟩
  | 67 => ⟨S2000000x3, .f32⟩
  | 68 => ⟨S2000000x3, .f32⟩
  | 69 => ⟨S_, .f32⟩
  | 70 => ⟨S2000000x3, .f32⟩
  | 71 => ⟨S2000000x3, .f32⟩
  | 72 => ⟨S_, .f32⟩
  | 73 => ⟨S2000000x3, .f32⟩
  | 74 => ⟨S2000000x3, .f32⟩
  | 75 => ⟨S2000000x3, .f32⟩
  | 76 => ⟨S2000000x3, .f32⟩
  | 77 => ⟨S2000000x3, .f32⟩
  | 78 => ⟨S2000000x3, .f32⟩
  | 79 => ⟨S2000000x3, .f32⟩
  | 80 => ⟨S2000000x3, .f32⟩
  | 81 => ⟨S2000000x3, .f32⟩
  | 82 => ⟨S_, .i32⟩
  | 83 => ⟨S2000000, .i32⟩
  | 84 => ⟨S2000000, .i1⟩
  | 85 => ⟨S_, .i32⟩
  | 86 => ⟨S2000000, .i32⟩
  | 87 => ⟨S2000000, .i32⟩
  | 88 => ⟨S2000000, .i32⟩
  | 89 => ⟨S2000000x1, .i32⟩
  | 90 => ⟨S2000000, .f32⟩
  | 91 => ⟨S2000000x1, .f32⟩
  | 92 => ⟨S2000000x3, .f32⟩
  | 93 => ⟨S2000000x3, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | _ => ⟨S2000000x4, .f32⟩

abbrev hbmTy (i : Nat) : BufTy := match i / 128 with
  | 0 => hbmTy0_0 i
  | 1 => hbmTy0_1 i
  | _ => ⟨S2000000x4, .f32⟩

abbrev bufTy : (tb : Table) → Fin (tcTables nBuf tb) → BufTy
  | .hbm, ⟨i, _⟩ => hbmTy i
  | _, _ => ⟨S2000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c : Ref sig .tc := ⟨.hbm, 64, rfl⟩
abbrev main_v42 : Ref sig .tc := ⟨.hbm, 65, rfl⟩
abbrev main_v43 : Ref sig .tc := ⟨.hbm, 66, rfl⟩
abbrev main_c_12 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_cst_14 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩
abbrev main_cst_16 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_17 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_19 : Ref sig .tc := ⟨.hbm, 102, rfl⟩
abbrev main_v72 : Ref sig .tc := ⟨.hbm, 103, rfl⟩
abbrev main_v73 : Ref sig .tc := ⟨.hbm, 104, rfl⟩
abbrev main_cst_20 : Ref sig .tc := ⟨.hbm, 105, rfl⟩
abbrev main_v74 : Ref sig .tc := ⟨.hbm, 106, rfl⟩
abbrev main_v75 : Ref sig .tc := ⟨.hbm, 107, rfl⟩
abbrev main_cst_21 : Ref sig .tc := ⟨.hbm, 108, rfl⟩
abbrev main_v76 : Ref sig .tc := ⟨.hbm, 109, rfl⟩
abbrev main_v77 : Ref sig .tc := ⟨.hbm, 110, rfl⟩
abbrev main_cst_22 : Ref sig .tc := ⟨.hbm, 111, rfl⟩
abbrev main_cst_23 : Ref sig .tc := ⟨.hbm, 112, rfl⟩
abbrev main_call3_v0 : Ref sig .tc := ⟨.hbm, 113, rfl⟩
abbrev main_call3_v1 : Ref sig .tc := ⟨.hbm, 114, rfl⟩
abbrev main_v78 : Ref sig .tc := ⟨.hbm, 115, rfl⟩
abbrev main_cst_24 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_25 : Ref sig .tc := ⟨.hbm, 121, rfl⟩
abbrev main_v83 : Ref sig .tc := ⟨.hbm, 122, rfl⟩
abbrev main_v84 : Ref sig .tc := ⟨.hbm, 123, rfl⟩
abbrev main_cst_26 : Ref sig .tc := ⟨.hbm, 124, rfl⟩
abbrev main_v85 : Ref sig .tc := ⟨.hbm, 125, rfl⟩
abbrev main_v86 : Ref sig .tc := ⟨.hbm, 126, rfl⟩
abbrev main_cst_27 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_28 : Ref sig .tc := ⟨.hbm, 137, rfl⟩
abbrev main_v96 : Ref sig .tc := ⟨.hbm, 138, rfl⟩
abbrev main_v97 : Ref sig .tc := ⟨.hbm, 139, rfl⟩
abbrev main_c_29 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_30 : Ref sig .tc := ⟨.hbm, 149, rfl⟩
abbrev main_v106 : Ref sig .tc := ⟨.hbm, 150, rfl⟩
abbrev main_cst_31 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_32 : Ref sig .tc := ⟨.hbm, 155, rfl⟩
abbrev main_v110 : Ref sig .tc := ⟨.hbm, 156, rfl⟩
abbrev main_v111 : Ref sig .tc := ⟨.hbm, 157, rfl⟩
abbrev main_cst_33 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_34 : Ref sig .tc := ⟨.hbm, 168, rfl⟩
abbrev main_v121 : Ref sig .tc := ⟨.hbm, 169, rfl⟩
abbrev main_v122 : Ref sig .tc := ⟨.hbm, 170, rfl⟩
abbrev main_cst_35 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_cst_36 : Ref sig .tc := ⟨.hbm, 175, rfl⟩
abbrev main_v126 : Ref sig .tc := ⟨.hbm, 176, rfl⟩
abbrev main_v127 : Ref sig .tc := ⟨.hbm, 177, rfl⟩
abbrev main_cst_37 : Ref sig .tc := ⟨.hbm, 178, rfl⟩
abbrev main_v128 : Ref sig .tc := ⟨.hbm, 179, rfl⟩
abbrev main_v129 : Ref sig .tc := ⟨.hbm, 180, rfl⟩
abbrev main_cst_38 : Ref sig .tc := ⟨.hbm, 181, rfl⟩
abbrev main_v130 : Ref sig .tc := ⟨.hbm, 182, rfl⟩
abbrev main_v131 : Ref sig .tc := ⟨.hbm, 183, rfl⟩
abbrev main_cst_39 : Ref sig .tc := ⟨.hbm, 184, rfl⟩
abbrev main_cst_40 : Ref sig .tc := ⟨.hbm, 185, rfl⟩
abbrev main_call5_v0 : Ref sig .tc := ⟨.hbm, 186, rfl⟩
abbrev main_call5_v1 : Ref sig .tc := ⟨.hbm, 187, rfl⟩
abbrev main_v132 : Ref sig .tc := ⟨.hbm, 188, rfl⟩
abbrev main_cst_41 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_42 : Ref sig .tc := ⟨.hbm, 194, rfl⟩
abbrev main_v137 : Ref sig .tc := ⟨.hbm, 195, rfl⟩
abbrev main_v138 : Ref sig .tc := ⟨.hbm, 196, rfl⟩
abbrev main_cst_43 : Ref sig .tc := ⟨.hbm, 197, rfl⟩
abbrev main_v139 : Ref sig .tc := ⟨.hbm, 198, rfl⟩
abbrev main_v140 : Ref sig .tc := ⟨.hbm, 199, rfl⟩
abbrev main_cst_44 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_c_45 : Ref sig .tc := ⟨.hbm, 210, rfl⟩
abbrev main_v150 : Ref sig .tc := ⟨.hbm, 211, rfl⟩
abbrev main_v151 : Ref sig .tc := ⟨.hbm, 212, rfl⟩
abbrev main_c_46 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_cst_47 : Ref sig .tc := ⟨.hbm, 222, rfl⟩
abbrev main_v160 : Ref sig .tc := ⟨.hbm, 223, rfl⟩
abbrev main_cst_48 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_cst_49 : Ref sig .tc := ⟨.hbm, 228, rfl⟩
abbrev main_v164 : Ref sig .tc := ⟨.hbm, 229, rfl⟩

abbrev nD : Nat := 1
abbrev τ : Topo := Topo.v7x

variable {F : FTy → Type} [FloatOps F]

class Facts₀ : Prop where
  bcast_S_S2000000x4 : S_.BroadcastsInDim S2000000x4 (![] : Fin 0 → Fin S2000000x4.rank)
  bcast_S4_S1x4_1 : S4.BroadcastsInDim S1x4 (![1] : Fin 1 → Fin S1x4.rank)
  bcast_S2000000_S2000000x1_0 : S2000000.BroadcastsInDim S2000000x1 (![0] : Fin 1 → Fin S2000000x1.rank)
  bcast_S1x4_S2000000x4_0_1 : S1x4.BroadcastsInDim S2000000x4 (![0, 1] : Fin 2 → Fin S2000000x4.rank)
  bcast_S2000000x1_S2000000x4_0_1 : S2000000x1.BroadcastsInDim S2000000x4 (![0, 1] : Fin 2 → Fin S2000000x4.rank)
  bcast_S_S2000000 : S_.BroadcastsInDim S2000000 (![] : Fin 0 → Fin S2000000.rank)
  reducesTo_S2000000x4_S_d0_1 : S2000000x4.ReducesTo [0, 1] S_
  h_S_ : 0 < S_.numel
  bcast_S_S2000000x3 : S_.BroadcastsInDim S2000000x3 (![] : Fin 0 → Fin S2000000x3.rank)
  bcast_S3_S1x3_1 : S3.BroadcastsInDim S1x3 (![1] : Fin 1 → Fin S1x3.rank)
  bcast_S1x3_S2000000x3_0_1 : S1x3.BroadcastsInDim S2000000x3 (![0, 1] : Fin 2 → Fin S2000000x3.rank)
  bcast_S2000000x1_S2000000x3_0_1 : S2000000x1.BroadcastsInDim S2000000x3 (![0, 1] : Fin 2 → Fin S2000000x3.rank)
  reducesTo_S2000000x3_S_d0_1 : S2000000x3.ReducesTo [0, 1] S_
  gather_S5_S2000000x1_S2000000_n_0_n_n_0_1_1_wf : GatherDims.WF S5 S2000000x1 S2000000 [] [0] [] [0] [] 1 ![1]

variable [Facts₀]

def gather_S5_S2000000x1_S2000000_n_0_n_n_0_1_1 : GatherDims S5 S2000000x1 S2000000 where
  offsetDims := []
  collapsedSliceDims := [0]
  operandBatchingDims := []
  startIndicesBatchingDims := []
  startIndexMap := [0]
  indexVectorDim := 1
  sliceSizes := ![1]
  wf := gather_S5_S2000000x1_S2000000_n_0_n_n_0_1_1_wf

class Facts : Prop extends Facts₀ where

variable [Facts]
-- ==== Proof.KPieces.lean ====
/-
  What each control case of the loss kernel's body leaves in the three accumulators and, at the last grid point, in the
  three outputs, as pure terms of the point's input blocks and of what the point before left.

  The body first builds the block's row weights from the five class weights and the block's labels, then for each task
  the block's loss summed over columns and rows, and adds it to every lane of the task's accumulator. At the first grid
  point the accumulator was just reset, so the sum is added to zeros; at the other points to what the point before left.
  At the last grid point each output receives its accumulator, just updated, times the reciprocal of the task's number
  of entries. Each fact is read off the body's run: the accumulator's last store covers it, and a load of a buffer reads
  what the latest covering store left.
-/
import proofs.«416350_j25305947308583_2_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The offsets of a whole-buffer rectangle of rank 2 are zero. -/
theorem hz2 : (![0, 0] : Fin 2 → Nat) = fun _ => 0 := by funext a; fin_cases a <;> rfl

/-- The block's row weights: the comparison chain over the five class weights, each loaded as a one-entry vector. -/
def rowWeights (x3 : Vec F S5 .f32) (x4 : Vec F S4000x1 .i32) : FVec F S4000x1 .f32 :=
  k0_pay16 (k0_pay13 x4 (View.ld x3 (Rect.unit ![0] ![1] inb_S5_S1_0)) (View.ld x3 (Rect.unit ![1] ![1] inb_S5_S1_1)) (View.ld x3 (Rect.unit ![2] ![1] inb_S5_S1_2)) (View.ld x3 (Rect.unit ![3] ![1] inb_S5_S1_3))) (k0_pay14 x4) (k0_pay15 (View.ld x3 (Rect.unit ![4] ![1] inb_S5_S1_4)))

/-- The first task's accumulator after a point: the block's loss, summed, added to every lane of what it held. -/
def add0 (x0 : Vec F S4000x4 .f32) (x3 : Vec F S5 .f32) (x4 : Vec F S4000x1 .i32) (prev : Vec F S1x128 .f32) : FVec F S1x128 .f32 :=
  k0_pay1 (k0_pay18 (k0_pay17 (k0_pay10 x4) (k0_pay13 x4 (View.ld x3 (Rect.unit ![0] ![1] inb_S5_S1_0)) (View.ld x3 (Rect.unit ![1] ![1] inb_S5_S1_1)) (View.ld x3 (Rect.unit ![2] ![1] inb_S5_S1_2)) (View.ld x3 (Rect.unit ![3] ![1] inb_S5_S1_3))) (k0_pay14 x4) (k0_pay15 (View.ld x3 (Rect.unit ![4] ![1] inb_S5_S1_4))) x0)) prev

/-- The second task's. -/
def add1 (x1 : Vec F S4000x3 .f32) (x3 : Vec F S5 .f32) (x4 x5 : Vec F S4000x1 .i32) (prev : Vec F S1x128 .f32) : FVec F S1x128 .f32 :=
  k0_pay2 (k0_pay20 (k0_pay19 (k0_pay11 x5) (rowWeights x3 x4) x1)) prev

/-- The third task's. -/
def add2 (x2 : Vec F S4000x3 .f32) (x3 : Vec F S5 .f32) (x4 x6 : Vec F S4000x1 .i32) (prev : Vec F S1x128 .f32) : FVec F S1x128 .f32 :=
  k0_pay3 (k0_pay21 (k0_pay12 x6) (rowWeights x3 x4) x2) prev

/-- At the first grid point the first accumulator ends at the block's sum added to zeros. -/
theorem first_acc0 (c : Dev nD) (i : grid0.Coords) (arg1 : Memref sig .tc .vmem S4000x4 .f32) (harg1 : arg1.IsWhole) (arg2 : Memref sig .tc .vmem S4000x3 .f32) (harg2 : arg2.IsWhole) (arg3 : Memref sig .tc .vmem S4000x3 .f32) (harg3 : arg3.IsWhole) (arg4 : Memref sig .tc .vmem S5 .f32) (harg4 : arg4.IsWhole) (arg5 : Memref sig .tc .vmem S4000x1 .i32) (harg5 : arg5.IsWhole) (arg6 : Memref sig .tc .vmem S4000x1 .i32) (harg6 : arg6.IsWhole) (arg7 : Memref sig .tc .vmem S4000x1 .i32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond0_0 i) (hc1 : ¬cond0_1 i)
    (x0 : Vec F S4000x4 .f32) (x1 : Vec F S4000x3 .f32) (x2 : Vec F S4000x3 .f32) (x3 : Vec F S5 .f32) (x4 : Vec F S4000x1 .i32) (x5 : Vec F S4000x1 .i32) (x6 : Vec F S4000x1 .i32) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = add0 x0 x3 x4 k0_pay7 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg11.read_unread, harg12.read_unread, harg13.read_unread, View.ld_unit_zero (S := S4000x4) hz2, View.ld_unit_zero (S := S4000x3) hz2, View.ld_unit_zero (S := S4000x1) hz2, View.ld_unit_zero (S := S1x128) hz2]
  rfl

/-- At the first grid point the second accumulator ends at the block's sum added to zeros. -/
theorem first_acc1 (c : Dev nD) (i : grid0.Coords) (arg1 : Memref sig .tc .vmem S4000x4 .f32) (harg1 : arg1.IsWhole) (arg2 : Memref sig .tc .vmem S4000x3 .f32) (harg2 : arg2.IsWhole) (arg3 : Memref sig .tc .vmem S4000x3 .f32) (harg3 : arg3.IsWhole) (arg4 : Memref sig .tc .vmem S5 .f32) (harg4 : arg4.IsWhole) (arg5 : Memref sig .tc .vmem S4000x1 .i32) (harg5 : arg5.IsWhole) (arg6 : Memref sig .tc .vmem S4000x1 .i32) (harg6 : arg6.IsWhole) (arg7 : Memref sig .tc .vmem S4000x1 .i32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond0_0 i) (hc1 : ¬cond0_1 i)
    (x0 : Vec F S4000x4 .f32) (x1 : Vec F S4000x3 .f32) (x2 : Vec F S4000x3 .f32) (x3 : Vec F S5 .f32) (x4 : Vec F S4000x1 .i32) (x5 : Vec F S4000x1 .i32) (x6 : Vec F S4000x1 .i32) :
    sout0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = add1 x1 x3 x4 x5 k0_pay8 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg11.read_unread, harg12.read_unread, harg13.read_unread, View.ld_unit_zero (S := S4000x4) hz2, View.ld_unit_zero (S := S4000x3) hz2, View.ld_unit_zero (S := S4000x1) hz2, View.ld_unit_zero (S := S1x128) hz2]
  rfl

/-- At the first grid point the third accumulator ends at the block's sum added to zeros. -/
theorem first_acc2 (c : Dev nD) (i : grid0.Coords) (arg1 : Memref sig .tc .vmem S4000x4 .f32) (harg1 : arg1.IsWhole) (arg2 : Memref sig .tc .vmem S4000x3 .f32) (harg2 : arg2.IsWhole) (arg3 : Memref sig .tc .vmem S4000x3 .f32) (harg3 : arg3.IsWhole) (arg4 : Memref sig .tc .vmem S5 .f32) (harg4 : arg4.IsWhole) (arg5 : Memref sig .tc .vmem S4000x1 .i32) (harg5 : arg5.IsWhole) (arg6 : Memref sig .tc .vmem S4000x1 .i32) (harg6 : arg6.IsWhole) (arg7 : Memref sig .tc .vmem S4000x1 .i32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : cond0_0 i) (hc1 : ¬cond0_1 i)
    (x0 : Vec F S4000x4 .f32) (x1 : Vec F S4000x3 .f32) (x2 : Vec F S4000x3 .f32) (x3 : Vec F S5 .f32) (x4 : Vec F S4000x1 .i32) (x5 : Vec F S4000x1 .i32) (x6 : Vec F S4000x1 .i32) :
    sout0_A_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = add2 x2 x3 x4 x6 k0_pay9 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6)]
  unfold kernelRun0_A
  dsimp only
  sl_unfold_words
  rw [View.canon_cons_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg11.read_unread, harg12.read_unread, harg13.read_unread, View.ld_unit_zero (S := S4000x4) hz2, View.ld_unit_zero (S := S4000x3) hz2, View.ld_unit_zero (S := S4000x1) hz2, View.ld_unit_zero (S := S1x128) hz2]
  rfl

/-- At a middle grid point the first accumulator ends at the block's sum added to what the point before left. -/
theorem mid_acc0 (c : Dev nD) (i : grid0.Coords) (arg1 : Memref sig .tc .vmem S4000x4 .f32) (harg1 : arg1.IsWhole) (arg2 : Memref sig .tc .vmem S4000x3 .f32) (harg2 : arg2.IsWhole) (arg3 : Memref sig .tc .vmem S4000x3 .f32) (harg3 : arg3.IsWhole) (arg4 : Memref sig .tc .vmem S5 .f32) (harg4 : arg4.IsWhole) (arg5 : Memref sig .tc .vmem S4000x1 .i32) (harg5 : arg5.IsWhole) (arg6 : Memref sig .tc .vmem S4000x1 .i32) (harg6 : arg6.IsWhole) (arg7 : Memref sig .tc .vmem S4000x1 .i32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond0_0 i) (hc1 : ¬cond0_1 i)
    (x0 : Vec F S4000x4 .f32) (x1 : Vec F S4000x3 .f32) (x2 : Vec F S4000x3 .f32) (x3 : Vec F S5 .f32) (x4 : Vec F S4000x1 .i32) (x5 : Vec F S4000x1 .i32) (x6 : Vec F S4000x1 .i32) (xs0 : Vec F S1x128 .f32) (xs1 : Vec F S1x128 .f32) (xs2 : Vec F S1x128 .f32) :
    sout0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = add0 x0 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_B
  dsimp only
  sl_unfold_words
  rw [View.canon_unit_zero (S := S1x128) hz2]
  simp only [View.readAt_eq_ld, harg1.read_unread, harg2.read_unread, harg3.read_unread, harg4.read_unread, harg5.read_unread, harg6.read_unread, harg7.read_unread, harg11.read_unread, harg12.read_unread, harg13.read_unread, View.ld_unit_zero (S := S4000x4) hz2, View.ld_unit_zero (S := S4000x3) hz2, View.ld_unit_zero (S := S4000x1) hz2, View.ld_unit_zero (S := S1x128) hz2]
  rfl

/-- At a middle grid point the second accumulator ends at the block's sum added to what the point before left. -/
theorem mid_acc1 (c : Dev nD) (i : grid0.Coords) (arg1 : Memref sig .tc .vmem S4000x4 .f32) (harg1 : arg1.IsWhole) (arg2 : Memref sig .tc .vmem S4000x3 .f32) (harg2 : arg2.IsWhole) (arg3 : Memref sig .tc .vmem S4000x3 .f32) (harg3 : arg3.IsWhole) (arg4 : Memref sig .tc .vmem S5 .f32) (harg4 : arg4.IsWhole) (arg5 : Memref sig .tc .vmem S4000x1 .i32) (harg5 : arg5.IsWhole) (arg6 : Memref sig .tc .vmem S4000x1 .i32) (harg6 : arg6.IsWhole) (arg7 : Memref sig .tc .vmem S4000x1 .i32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond0_0 i) (hc1 : ¬cond0_1 i)
    (x0 : Vec F S4000x4 .f32) (x1 : Vec F S4000x3 .f32) (x2 : Vec F S4000x3 .f32) (x3 : Vec F S5 .f32) (x4 : Vec F S4000x1 .i32) (x5 : Vec F S4000x1 .i32) (x6 : Vec F S4000x1 .i32) (xs0 : Vec F S1x128 .f32) (xs1 : Vec F S1x128 .f32) (xs2 : Vec F S1x128 .f32) :
    sout0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = add1 x1 x3 x4 x5 xs1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_B
  dsimp only
  sl_unfold_words
  rw [View.canon_unit_zero (S := S1x128) hz2]
  simp only [View.readAt_eq_ld, harg1.read_unread, harg2.read_unread, harg3.read_unread, harg4.read_unread, harg5.read_unread, harg6.read_unread, harg7.read_unread, harg11.read_unread, harg12.read_unread, harg13.read_unread, View.ld_unit_zero (S := S4000x4) hz2, View.ld_unit_zero (S := S4000x3) hz2, View.ld_unit_zero (S := S4000x1) hz2, View.ld_unit_zero (S := S1x128) hz2]
  rfl

/-- At a middle grid point the third accumulator ends at the block's sum added to what the point before left. -/
theorem mid_acc2 (c : Dev nD) (i : grid0.Coords) (arg1 : Memref sig .tc .vmem S4000x4 .f32) (harg1 : arg1.IsWhole) (arg2 : Memref sig .tc .vmem S4000x3 .f32) (harg2 : arg2.IsWhole) (arg3 : Memref sig .tc .vmem S4000x3 .f32) (harg3 : arg3.IsWhole) (arg4 : Memref sig .tc .vmem S5 .f32) (harg4 : arg4.IsWhole) (arg5 : Memref sig .tc .vmem S4000x1 .i32) (harg5 : arg5.IsWhole) (arg6 : Memref sig .tc .vmem S4000x1 .i32) (harg6 : arg6.IsWhole) (arg7 : Memref sig .tc .vmem S4000x1 .i32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond0_0 i) (hc1 : ¬cond0_1 i)
    (x0 : Vec F S4000x4 .f32) (x1 : Vec F S4000x3 .f32) (x2 : Vec F S4000x3 .f32) (x3 : Vec F S5 .f32) (x4 : Vec F S4000x1 .i32) (x5 : Vec F S4000x1 .i32) (x6 : Vec F S4000x1 .i32) (xs0 : Vec F S1x128 .f32) (xs1 : Vec F S1x128 .f32) (xs2 : Vec F S1x128 .f32) :
    sout0_B_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = add2 x2 x3 x4 x6 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_B
  dsimp only
  sl_unfold_words
  rw [View.canon_unit_zero (S := S1x128) hz2]
  simp only [View.readAt_eq_ld, harg1.read_unread, harg2.read_unread, harg3.read_unread, harg4.read_unread, harg5.read_unread, harg6.read_unread, harg7.read_unread, harg11.read_unread, harg12.read_unread, harg13.read_unread, View.ld_unit_zero (S := S4000x4) hz2, View.ld_unit_zero (S := S4000x3) hz2, View.ld_unit_zero (S := S4000x1) hz2, View.ld_unit_zero (S := S1x128) hz2]
  rfl

/-- At the last grid point the first accumulator likewise. -/
theorem last_acc0 (c : Dev nD) (i : grid0.Coords) (arg1 : Memref sig .tc .vmem S4000x4 .f32) (harg1 : arg1.IsWhole) (arg2 : Memref sig .tc .vmem S4000x3 .f32) (harg2 : arg2.IsWhole) (arg3 : Memref sig .tc .vmem S4000x3 .f32) (harg3 : arg3.IsWhole) (arg4 : Memref sig .tc .vmem S5 .f32) (harg4 : arg4.IsWhole) (arg5 : Memref sig .tc .vmem S4000x1 .i32) (harg5 : arg5.IsWhole) (arg6 : Memref sig .tc .vmem S4000x1 .i32) (harg6 : arg6.IsWhole) (arg7 : Memref sig .tc .vmem S4000x1 .i32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond0_0 i) (hc1 : cond0_1 i)
    (x0 : Vec F S4000x4 .f32) (x1 : Vec F S4000x3 .f32) (x2 : Vec F S4000x3 .f32) (x3 : Vec F S5 .f32) (x4 : Vec F S4000x1 .i32) (x5 : Vec F S4000x1 .i32) (x6 : Vec F S4000x1 .i32) (xs0 : Vec F S1x128 .f32) (xs1 : Vec F S1x128 .f32) (xs2 : Vec F S1x128 .f32) :
    sout0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = add0 x0 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_C
  dsimp only
  sl_unfold_words
  rw [View.canon_unit_zero (S := S1x128) hz2]
  simp only [View.readAt_eq_ld, harg1.read_unread, harg2.read_unread, harg3.read_unread, harg4.read_unread, harg5.read_unread, harg6.read_unread, harg7.read_unread, harg11.read_unread, harg12.read_unread, harg13.read_unread, View.ld_unit_zero (S := S4000x4) hz2, View.ld_unit_zero (S := S4000x3) hz2, View.ld_unit_zero (S := S4000x1) hz2, View.ld_unit_zero (S := S1x128) hz2]
  rfl

/-- At the last grid point the second accumulator likewise. -/
theorem last_acc1 (c : Dev nD) (i : grid0.Coords) (arg1 : Memref sig .tc .vmem S4000x4 .f32) (harg1 : arg1.IsWhole) (arg2 : Memref sig .tc .vmem S4000x3 .f32) (harg2 : arg2.IsWhole) (arg3 : Memref sig .tc .vmem S4000x3 .f32) (harg3 : arg3.IsWhole) (arg4 : Memref sig .tc .vmem S5 .f32) (harg4 : arg4.IsWhole) (arg5 : Memref sig .tc .vmem S4000x1 .i32) (harg5 : arg5.IsWhole) (arg6 : Memref sig .tc .vmem S4000x1 .i32) (harg6 : arg6.IsWhole) (arg7 : Memref sig .tc .vmem S4000x1 .i32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond0_0 i) (hc1 : cond0_1 i)
    (x0 : Vec F S4000x4 .f32) (x1 : Vec F S4000x3 .f32) (x2 : Vec F S4000x3 .f32) (x3 : Vec F S5 .f32) (x4 : Vec F S4000x1 .i32) (x5 : Vec F S4000x1 .i32) (x6 : Vec F S4000x1 .i32) (xs0 : Vec F S1x128 .f32) (xs1 : Vec F S1x128 .f32) (xs2 : Vec F S1x128 .f32) :
    sout0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = add1 x1 x3 x4 x5 xs1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_C
  dsimp only
  sl_unfold_words
  rw [View.canon_unit_zero (S := S1x128) hz2]
  simp only [View.readAt_eq_ld, harg1.read_unread, harg2.read_unread, harg3.read_unread, harg4.read_unread, harg5.read_unread, harg6.read_unread, harg7.read_unread, harg11.read_unread, harg12.read_unread, harg13.read_unread, View.ld_unit_zero (S := S4000x4) hz2, View.ld_unit_zero (S := S4000x3) hz2, View.ld_unit_zero (S := S4000x1) hz2, View.ld_unit_zero (S := S1x128) hz2]
  rfl

/-- At the last grid point the third accumulator likewise. -/
theorem last_acc2 (c : Dev nD) (i : grid0.Coords) (arg1 : Memref sig .tc .vmem S4000x4 .f32) (harg1 : arg1.IsWhole) (arg2 : Memref sig .tc .vmem S4000x3 .f32) (harg2 : arg2.IsWhole) (arg3 : Memref sig .tc .vmem S4000x3 .f32) (harg3 : arg3.IsWhole) (arg4 : Memref sig .tc .vmem S5 .f32) (harg4 : arg4.IsWhole) (arg5 : Memref sig .tc .vmem S4000x1 .i32) (harg5 : arg5.IsWhole) (arg6 : Memref sig .tc .vmem S4000x1 .i32) (harg6 : arg6.IsWhole) (arg7 : Memref sig .tc .vmem S4000x1 .i32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond0_0 i) (hc1 : cond0_1 i)
    (x0 : Vec F S4000x4 .f32) (x1 : Vec F S4000x3 .f32) (x2 : Vec F S4000x3 .f32) (x3 : Vec F S5 .f32) (x4 : Vec F S4000x1 .i32) (x5 : Vec F S4000x1 .i32) (x6 : Vec F S4000x1 .i32) (xs0 : Vec F S1x128 .f32) (xs1 : Vec F S1x128 .f32) (xs2 : Vec F S1x128 .f32) :
    sout0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = add2 x2 x3 x4 x6 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_C
  dsimp only
  sl_unfold_words
  rw [View.canon_unit_zero (S := S1x128) hz2]
  simp only [View.readAt_eq_ld, harg1.read_unread, harg2.read_unread, harg3.read_unread, harg4.read_unread, harg5.read_unread, harg6.read_unread, harg7.read_unread, harg11.read_unread, harg12.read_unread, harg13.read_unread, View.ld_unit_zero (S := S4000x4) hz2, View.ld_unit_zero (S := S4000x3) hz2, View.ld_unit_zero (S := S4000x1) hz2, View.ld_unit_zero (S := S1x128) hz2]
  rfl

/-- At the last grid point the first output receives the first accumulator, just updated, scaled. -/
theorem last_out0 (c : Dev nD) (i : grid0.Coords) (arg1 : Memref sig .tc .vmem S4000x4 .f32) (harg1 : arg1.IsWhole) (arg2 : Memref sig .tc .vmem S4000x3 .f32) (harg2 : arg2.IsWhole) (arg3 : Memref sig .tc .vmem S4000x3 .f32) (harg3 : arg3.IsWhole) (arg4 : Memref sig .tc .vmem S5 .f32) (harg4 : arg4.IsWhole) (arg5 : Memref sig .tc .vmem S4000x1 .i32) (harg5 : arg5.IsWhole) (arg6 : Memref sig .tc .vmem S4000x1 .i32) (harg6 : arg6.IsWhole) (arg7 : Memref sig .tc .vmem S4000x1 .i32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond0_0 i) (hc1 : cond0_1 i)
    (x0 : Vec F S4000x4 .f32) (x1 : Vec F S4000x3 .f32) (x2 : Vec F S4000x3 .f32) (x3 : Vec F S5 .f32) (x4 : Vec F S4000x1 .i32) (x5 : Vec F S4000x1 .i32) (x6 : Vec F S4000x1 .i32) (xs0 : Vec F S1x128 .f32) (xs1 : Vec F S1x128 .f32) (xs2 : Vec F S1x128 .f32) :
    out0_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay4 (add0 x0 x3 x4 xs0) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_C
  dsimp only
  sl_unfold_words
  rw [View.canon_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg11.read_unread, harg12.read_unread, harg13.read_unread, View.ld_unit_zero (S := S4000x4) hz2, View.ld_unit_zero (S := S4000x3) hz2, View.ld_unit_zero (S := S4000x1) hz2, View.ld_unit_zero (S := S1x128) hz2]
  rfl

/-- At the last grid point the second output receives the second accumulator, just updated, scaled. -/
theorem last_out1 (c : Dev nD) (i : grid0.Coords) (arg1 : Memref sig .tc .vmem S4000x4 .f32) (harg1 : arg1.IsWhole) (arg2 : Memref sig .tc .vmem S4000x3 .f32) (harg2 : arg2.IsWhole) (arg3 : Memref sig .tc .vmem S4000x3 .f32) (harg3 : arg3.IsWhole) (arg4 : Memref sig .tc .vmem S5 .f32) (harg4 : arg4.IsWhole) (arg5 : Memref sig .tc .vmem S4000x1 .i32) (harg5 : arg5.IsWhole) (arg6 : Memref sig .tc .vmem S4000x1 .i32) (harg6 : arg6.IsWhole) (arg7 : Memref sig .tc .vmem S4000x1 .i32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond0_0 i) (hc1 : cond0_1 i)
    (x0 : Vec F S4000x4 .f32) (x1 : Vec F S4000x3 .f32) (x2 : Vec F S4000x3 .f32) (x3 : Vec F S5 .f32) (x4 : Vec F S4000x1 .i32) (x5 : Vec F S4000x1 .i32) (x6 : Vec F S4000x1 .i32) (xs0 : Vec F S1x128 .f32) (xs1 : Vec F S1x128 .f32) (xs2 : Vec F S1x128 .f32) :
    out0_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay5 (add1 x1 x3 x4 x5 xs1) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_C
  dsimp only
  sl_unfold_words
  rw [View.canon_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg11.read_unread, harg12.read_unread, harg13.read_unread, View.ld_unit_zero (S := S4000x4) hz2, View.ld_unit_zero (S := S4000x3) hz2, View.ld_unit_zero (S := S4000x1) hz2, View.ld_unit_zero (S := S1x128) hz2]
  rfl

/-- At the last grid point the third output receives the third accumulator, just updated, scaled. -/
theorem last_out2 (c : Dev nD) (i : grid0.Coords) (arg1 : Memref sig .tc .vmem S4000x4 .f32) (harg1 : arg1.IsWhole) (arg2 : Memref sig .tc .vmem S4000x3 .f32) (harg2 : arg2.IsWhole) (arg3 : Memref sig .tc .vmem S4000x3 .f32) (harg3 : arg3.IsWhole) (arg4 : Memref sig .tc .vmem S5 .f32) (harg4 : arg4.IsWhole) (arg5 : Memref sig .tc .vmem S4000x1 .i32) (harg5 : arg5.IsWhole) (arg6 : Memref sig .tc .vmem S4000x1 .i32) (harg6 : arg6.IsWhole) (arg7 : Memref sig .tc .vmem S4000x1 .i32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (hc0 : ¬cond0_0 i) (hc1 : cond0_1 i)
    (x0 : Vec F S4000x4 .f32) (x1 : Vec F S4000x3 .f32) (x2 : Vec F S4000x3 .f32) (x3 : Vec F S5 .f32) (x4 : Vec F S4000x1 .i32) (x5 : Vec F S4000x1 .i32) (x6 : Vec F S4000x1 .i32) (xs0 : Vec F S1x128 .f32) (xs1 : Vec F S1x128 .f32) (xs2 : Vec F S1x128 .f32) :
    out0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = k0_pay6 (add2 x2 x3 x4 x6 xs2) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2)]
  unfold kernelRun0_C
  dsimp only
  sl_unfold_words
  rw [View.canon_unit_zero (S := S1x128) hz2, View.readCov_unit_zero (S := S1x128) _ hz2]
  simp only [View.readAt_eq_ld, harg1.read_unread, harg2.read_unread, harg3.read_unread, harg4.read_unread, harg5.read_unread, harg6.read_unread, harg7.read_unread, harg11.read_unread, harg12.read_unread, harg13.read_unread, View.ld_unit_zero (S := S4000x4) hz2, View.ld_unit_zero (S := S4000x3) hz2, View.ld_unit_zero (S := S4000x1) hz2, View.ld_unit_zero (S := S1x128) hz2]
  rfl

end Cert.KernelIdeal.Pieces

end
-- ==== Proof.LibColPool.lean ====
/-
  Column pooling by a matrix product, on the extended reals.

  1. The product of an R x G left operand with an R x C right operand, BOTH contracted on their first axis (the left
     operand transposed), accumulated into the zero array: entry (g, j) is the sum over r of left (r, g) * right (r, j),
     whatever float formats the operands carry (a change of format is the identity on the extended reals). The contraction
     index has one axis, of extent R; re-indexed by its one coordinate r, the operand indices at output (g, j) are (r, g)
     and (r, j).
  2. A one-hot weight: the one-bit word "b = g" read unsigned is 1 when the 32-bit word b, read signed, is g, and 0
     otherwise (g below 2^31); so a sum of weight * value over all rows is the sum of the values over the rows whose
     word is g, for 0 * x = 0 and 1 * x = x hold for every extended real x, infinite ones included.
  3. A sum over T * R rows is the sum over T blocks of the sums over the R rows of each block, row r of block t being
     row t * R + r.

  A record of dimension numbers printed with a program is the one of part 1 whenever its six lists are
  [0], [0], [1], [1], [], [] (the seventh field is a proof), by reflexivity.
-/
import Idealize.ShloMosaic.PureOps.Ideal.Laws
import Idealize.ShloMosaic.Lib.ValueIdx
import Idealize.ShloMosaic.Lib.Pipeline.Value

noncomputable section

open scoped BigOperators

namespace Cert.LibColPool

open Idealize.ShloMosaic Idealize.ShloMosaic.ValueIdx

/-! ## 1. A product contracted on both operands' first axis -/

/-- The dimension numbers of left^T * right: both operands contracted on axis 0, their second axes the result's two. -/
abbrev colDims (R G C : Nat)
    (wf : DotDims.WF ⟨2, ![R, G]⟩ ⟨2, ![R, C]⟩ ⟨2, ![G, C]⟩ [0] [0] [1] [1] [] []) :
    DotDims ⟨2, ![R, G]⟩ ⟨2, ![R, C]⟩ ⟨2, ![G, C]⟩ where
  lhsContracting := [0]
  rhsContracting := [0]
  lhsNonContracting := [1]
  rhsNonContracting := [1]
  lhsBatch := []
  rhsBatch := []
  wf := wf

section Dims
variable {R G C : Nat} (wf : DotDims.WF ⟨2, ![R, G]⟩ ⟨2, ![R, C]⟩ ⟨2, ![G, C]⟩ [0] [0] [1] [1] [] [])

/-- The left operand's row coordinate is the contraction index's one coordinate. -/
theorem col_lhs_row (j : (⟨2, ![G, C]⟩ : Shape).Idx) (q : (colDims R G C wf).contr.Idx) :
    ((colDims R G C wf).lhsIdx j q 0).val = (q ⟨0, Nat.one_pos⟩).val :=
  (colDims R G C wf).lhsIdx_val_of_single rfl j q
/-- The left operand's column coordinate at output index j is j's row. -/
theorem col_lhs_col (j : (⟨2, ![G, C]⟩ : Shape).Idx) (q : (colDims R G C wf).contr.Idx) :
    ((colDims R G C wf).lhsIdx j q 1).val = (j 0).val := rfl
/-- The right operand's row coordinate is the contraction index's one coordinate. -/
theorem col_rhs_row (j : (⟨2, ![G, C]⟩ : Shape).Idx) (q : (colDims R G C wf).contr.Idx) :
    ((colDims R G C wf).rhsIdx j q 0).val = (q ⟨0, Nat.one_pos⟩).val :=
  (colDims R G C wf).rhsIdx_val_of_single rfl j q
/-- The right operand's column coordinate at output index j is j's column. -/
theorem col_rhs_col (j : (⟨2, ![G, C]⟩ : Shape).Idx) (q : (colDims R G C wf).contr.Idx) :
    ((colDims R G C wf).rhsIdx j q 1).val = (j 1).val := rfl

/-- The left operand's index at output (g, j) and contraction coordinate r is (r, g). -/
theorem col_lhsIdx (g : Fin G) (j : Fin C) (r : Fin R) :
    (colDims R G C wf).lhsIdx (ix2 g j) ((contrEquiv1 (colDims R G C wf) R rfl rfl).symm r) = ix2 r g :=
  funext fun b => Fin.ext (by
    have hr := contrEquiv1_symm_val (colDims R G C wf) R rfl rfl r
    match b with
    | ⟨0, _⟩ => exact (col_lhs_row wf _ _).trans hr
    | ⟨1, _⟩ => exact col_lhs_col wf _ _)

/-- The right operand's index at output (g, j) and contraction coordinate r is (r, j). -/
theorem col_rhsIdx (g : Fin G) (j : Fin C) (r : Fin R) :
    (colDims R G C wf).rhsIdx (ix2 g j) ((contrEquiv1 (colDims R G C wf) R rfl rfl).symm r) = ix2 r j :=
  funext fun b => Fin.ext (by
    have hr := contrEquiv1_symm_val (colDims R G C wf) R rfl rfl r
    match b with
    | ⟨0, _⟩ => exact (col_rhs_row wf _ _).trans hr
    | ⟨1, _⟩ => exact col_rhs_col wf _ _)

/-- THE PRODUCT left^T * right into the zero array, operands of any formats, at entry (g, j). -/
theorem matmul_col_zero_any {φ₁ φ₂ : FTy} (A : FVec Ideal ⟨2, ![R, G]⟩ φ₁) (B : FVec Ideal ⟨2, ![R, C]⟩ φ₂)
    (g : Fin G) (j : Fin C) :
    matmul (colDims R G C wf) none A B (constant ⟨2, ![G, C]⟩ .f32 0x00000000#32) (ix2 g j)
      = ∑ r : Fin R, (A (ix2 r g) : EReal) * (B (ix2 r j) : EReal) := by
  simp only [matmul]
  rw [Ideal.matmul_constant_zero_apply, ← Equiv.sum_comp (contrEquiv1 (colDims R G C wf) R rfl rfl).symm]
  refine Finset.sum_congr rfl fun r _ => ?_
  rw [col_lhsIdx, col_rhsIdx]

end Dims

/-! ## 2. One-hot weights -/

/-- The bit "b = g" read unsigned, as an extended real: 1 when b read signed is g, else 0. -/
theorem onehot_weight (b : BitVec 32) (g : Nat) (hg : g < 2 ^ 31) :
    (((IntOp.cmpi .eq b (BitVec.ofNat 32 g)).toNat : ℝ) : EReal) = if b.toInt = (g : Int) then 1 else 0 := by
  have hgi : (BitVec.ofNat 32 g).toInt = (g : Int) := by
    rw [BitVec.toInt_eq_msb_cond, BitVec.msb_eq_false_iff_two_mul_lt.mpr (by simp [BitVec.toNat_ofNat]; omega)]
    simp [BitVec.toNat_ofNat]; omega
  by_cases h : b = BitVec.ofNat 32 g
  · subst h
    rw [if_pos hgi]
    have : IntOp.cmpi .eq (BitVec.ofNat 32 g) (BitVec.ofNat 32 g) = 1#1 := by simp [IntOp.cmpi]
    rw [this]; simp
  · have hne : ¬ b.toInt = (g : Int) := fun e => h (BitVec.eq_of_toInt_eq (e.trans hgi.symm))
    rw [if_neg hne]
    have : IntOp.cmpi .eq b (BitVec.ofNat 32 g) = 0#1 := by
      unfold IntOp.cmpi
      rw [show (b == BitVec.ofNat 32 g) = false from beq_eq_false_iff_ne.mpr h]
      rfl
    rw [this]; simp

/-- A sum of one-hot weight times value over all rows is the sum of the values over the rows whose word is g. -/
theorem sum_onehot_mul {N : Nat} (b : Fin N → BitVec 32) (h : Fin N → EReal) (g : Nat) (hg : g < 2 ^ 31) :
    ∑ n : Fin N, (((IntOp.cmpi .eq (b n) (BitVec.ofNat 32 g)).toNat : ℝ) : EReal) * h n
      = ∑ n ∈ Finset.univ.filter (fun n : Fin N => (b n).toInt = (g : Int)), h n := by
  rw [Finset.sum_filter]
  refine Finset.sum_congr rfl fun n _ => ?_
  rw [onehot_weight _ _ hg]
  split
  · rw [one_mul]
  · rw [zero_mul]

/-! ## 3. A sum over T * R rows, block by block -/

/-- Row r of block t, among T * R rows. -/
def blockRow {T R : Nat} (t : Fin T) (r : Fin R) : Fin (T * R) :=
  ⟨t.val * R + r.val, by
    have h1 : t.val * R + r.val < (t.val + 1) * R := by rw [Nat.succ_mul]; exact Nat.add_lt_add_left r.isLt _
    exact Nat.lt_of_lt_of_le h1 (Nat.mul_le_mul_right R t.isLt)⟩

/-- A sum over all rows is the sum over the blocks of the sums over each block's rows. -/
theorem sum_blocks {M : Type*} [AddCommMonoid M] (T R : Nat) (f : Fin (T * R) → M) :
    ∑ n : Fin (T * R), f n = ∑ t : Fin T, ∑ r : Fin R, f (blockRow t r) := by
  rw [← Equiv.sum_comp finProdFinEquiv f, Fintype.sum_prod_type]
  refine Finset.sum_congr rfl fun t _ => Finset.sum_congr rfl fun r _ => congrArg f (Fin.ext ?_)
  show r.val + R * t.val = t.val * R + r.val
  rw [Nat.mul_comm, Nat.add_comm]

end Cert.LibColPool

end
-- ==== Proof.Spec.lean ====
/-
  The ordinal focal loss of one logit, the class weight of one label, and how the sums over rows are arranged.

  One logit x of a row whose column is below the row's target (b = 1) or is not (b = 0), with the row's weight w:
  p is the logistic of x, tm the indicator as a number, pt = p where tm = 1 and 1 - p elsewhere, the focal weight
  (1 - pt)^2, the balance 1/4 where tm = 1 and 3/4 elsewhere, the cross-entropy tm * log (p + eps) + (1 - tm) * log (1 - p + eps);
  the loss is -(balance * focal * ce) * w. One program writes the logistic as one operation, squares by a product and negates
  by subtracting from zero; the other writes 1 / (1 + exp (-x)), raises to the power 2 and negates the balance first. On the
  extended reals these are one number: the logistic of any extended real is a real number, so 1 - pt is real and its
  power 2 is its square, and a sign moves across a product.

  A label's class weight: comparing the label with 0, 1, 2, 3, 4 in turn and keeping the matching entry (zero when none
  matches) is the table's entry at the label, when the label lies in 0..4; so is the entry at the label wrapped (5 added if
  negative) and clamped into 0..4.

  Accumulating f 0, f 1, ... from zero, one at a time, gives the sum; a sum over 2,000,000 rows is the sum over 500 blocks
  of the sums over each block's 4,000 rows.
-/
import Idealize.ShloMosaic.PureOps.Ideal
import Idealize.ShloMosaic.PureOps.Ideal.Laws
import Idealize.ShloMosaic.Lib.ValueIdx
import Idealize.ShloMosaic.Lib.StableHlo.Predicate
import proofs.«416350_j25305947308583_2_alg».proof.Proof.LibColPool

noncomputable section

open scoped BigOperators

namespace Cert.Coral

open Idealize.ShloMosaic Idealize.ShloMosaic.ValueIdx

/-! ## The float words the programs spell -/

theorem word_one : Ideal.ofBits .f32 0x3F800000#32 = 1 := by
  simp [Ideal.ofBits, Ideal.ieee, -EReal.coe_mul]; norm_num

theorem word_two : Ideal.ofBits .f32 0x40000000#32 = ((2 : ℝ) : EReal) := by
  simp [Ideal.ofBits, Ideal.ieee, -EReal.coe_mul]; norm_num

theorem word_8e6 : Ideal.ofBits .f32 0x4AF42400#32 = ((8000000 : ℝ) : EReal) := by
  simp [Ideal.ofBits, Ideal.ieee, -EReal.coe_mul]; norm_num

theorem word_6e6 : Ideal.ofBits .f32 0x4AB71B00#32 = ((6000000 : ℝ) : EReal) := by
  simp [Ideal.ofBits, Ideal.ieee, -EReal.coe_mul]; norm_num

/-! ## One logit's loss -/

/-- The indicator as a number: 1 or 0. -/
def ind (b : BitVec 1) : EReal := ((b.toNat : ℝ) : EReal)

/-- Widened to 32 bits and read signed it is the same number. -/
theorem ind_signed (b : BitVec 1) : (((b.setWidth 32).toInt : ℝ) : EReal) = ind b := by
  have h : ∀ b : BitVec 1, (b.setWidth 32).toInt = (b.toNat : ℤ) := by decide
  unfold ind
  rw [h b]
  norm_cast

/-- The loss of one logit, squared by a product and negated by subtraction from zero. -/
def term (x : EReal) (b : BitVec 1) (w : EReal) : EReal :=
  let one := Ideal.ofBits .f32 0x3F800000#32
  let eps := Ideal.ofBits .f32 0x322BCC77#32
  let p := Ideal.logistic x
  let tm := ind b
  let hit := Ideal.cmp .oeq tm one
  let pt := Scalar.select hit p (one - p)
  let fw := (one - pt) * (one - pt)
  let bal := Scalar.select hit (Ideal.ofBits .f32 0x3E800000#32) (Ideal.ofBits .f32 0x3F400000#32)
  let ce := tm * Ideal.log (p + eps) + (one - tm) * Ideal.log ((one - p) + eps)
  (Ideal.ofBits .f32 0x00000000#32 - (bal * fw) * ce) * w

/-- The same with the logistic spelled out, the square as a power and the sign on the balance. -/
def termPow (x : EReal) (b : BitVec 1) (w : EReal) : EReal :=
  let one := Ideal.ofBits .f32 0x3F800000#32
  let eps := Ideal.ofBits .f32 0x322BCC77#32
  let p := Ideal.div one (one + Ideal.exp (-x))
  let tm := ind b
  let hit := Ideal.cmp .oeq tm one
  let pt := Scalar.select hit p (one - p)
  let fw := Ideal.pow (one - pt) (Ideal.ofBits .f32 0x40000000#32)
  let bal := Scalar.select hit (Ideal.ofBits .f32 0x3E800000#32) (Ideal.ofBits .f32 0x3F400000#32)
  let ce := tm * Ideal.log (p + eps) + (one - tm) * Ideal.log ((one - p) + eps)
  (((-bal) * fw) * ce) * w

/-- The logistic of an extended real is a real number. -/
theorem logistic_real (x : EReal) : ∃ r : ℝ, Ideal.logistic x = (r : EReal) := by
  induction x using EReal.rec with
  | bot => exact ⟨0, by rw [Ideal.logistic_bot]; rfl⟩
  | coe r => exact ⟨_, Ideal.logistic_coe r⟩
  | top => exact ⟨1, by rw [Ideal.logistic_top]; rfl⟩

/-- The two arrangements are one number. -/
theorem termPow_eq (x : EReal) (b : BitVec 1) (w : EReal) : termPow x b w = term x b w := by
  unfold termPow term
  simp only [word_one, word_two, Ideal.ofBits_zero_f32]
  have hp : Ideal.div 1 (1 + Ideal.exp (-x)) = Ideal.logistic x := rfl
  rw [hp]
  obtain ⟨r, hr⟩ := logistic_real x
  rw [hr]
  have hsq : ∀ s : ℝ, Ideal.pow ((s : ℝ) : EReal) ((2 : ℝ) : EReal) = (s : EReal) * (s : EReal) := by
    intro s
    rw [Ideal.pow_coe_coe, ← EReal.coe_mul]
    congr 1
    show s ^ (2 : ℝ) = s * s
    rw [Real.rpow_two, sq]
  have h1 : (1 : EReal) = ((1 : ℝ) : EReal) := rfl
  by_cases hh : Ideal.cmp .oeq (ind b) 1 = 1
  · simp only [Scalar.select, if_pos hh]
    rw [h1, ← EReal.coe_sub, hsq, EReal.neg_mul, EReal.neg_mul, zero_sub]
  · simp only [Scalar.select, if_neg hh]
    rw [h1, ← EReal.coe_sub, ← EReal.coe_sub, hsq, EReal.neg_mul, EReal.neg_mul, zero_sub]

/-! ## One label's class weight -/

/-- The table's entry found by comparing the label with 0, 1, 2, 3, 4 in turn; zero when none matches. -/
def pick (cw : Fin 5 → EReal) (t : BitVec 32) : EReal :=
  Scalar.select (IntOp.cmpi .eq t 4#32) (cw 4)
    (Scalar.select (IntOp.cmpi .eq t 3#32) (cw 3)
      (Scalar.select (IntOp.cmpi .eq t 2#32) (cw 2)
        (Scalar.select (IntOp.cmpi .eq t 1#32) (cw 1)
          (Scalar.select (IntOp.cmpi .eq t 0#32) (cw 0) (Ideal.ofBits .f32 0x00000000#32)))))

/-- The label as an index: 5 added if it is negative. -/
def wrap (t : BitVec 32) : BitVec 32 := Scalar.select (IntOp.cmpi .slt t 0#32) (IntOp.addi t 5#32) t

/-- The table's entry at the wrapped label clamped into 0..4. -/
def look (cw : Fin 5 → EReal) (t : BitVec 32) : EReal :=
  cw ⟨min (wrap t).toInt.toNat (5 - 1), by omega⟩

/-- A label in 0..4 is one of the five words. -/
theorem label_cases (t : BitVec 32) (h0 : IntOp.cmpi .sge t 0#32 = 1#1) (h5 : IntOp.cmpi .slt t 5#32 = 1#1) :
    t = 0#32 ∨ t = 1#32 ∨ t = 2#32 ∨ t = 3#32 ∨ t = 4#32 := by
  have e0 : (0#32 : BitVec 32).toInt = 0 := by decide
  have e5 : (5#32 : BitVec 32).toInt = 5 := by decide
  have g0 : 0 ≤ t.toInt := by
    have := h0
    simp only [IntOp.cmpi, StableHlo.Predicate.ofBool_eq_one_iff, BitVec.sle, decide_eq_true_eq, e0] at this
    exact this
  have g5 : t.toInt < 5 := by
    have := h5
    simp only [IntOp.cmpi, StableHlo.Predicate.ofBool_eq_one_iff, BitVec.slt, decide_eq_true_eq, e5] at this
    exact this
  have ht : t = BitVec.ofInt 32 t.toInt := (BitVec.ofInt_toInt).symm
  have : t.toInt = 0 ∨ t.toInt = 1 ∨ t.toInt = 2 ∨ t.toInt = 3 ∨ t.toInt = 4 := by omega
  rcases this with h | h | h | h | h <;> rw [h] at ht
  · exact Or.inl ht
  · exact Or.inr (Or.inl ht)
  · exact Or.inr (Or.inr (Or.inl ht))
  · exact Or.inr (Or.inr (Or.inr (Or.inl ht)))
  · exact Or.inr (Or.inr (Or.inr (Or.inr ht)))

/-- On a label in 0..4 the lookup is the comparison chain. -/
theorem look_eq_pick (cw : Fin 5 → EReal) (t : BitVec 32) (h0 : IntOp.cmpi .sge t 0#32 = 1#1)
    (h5 : IntOp.cmpi .slt t 5#32 = 1#1) : look cw t = pick cw t := by
  rcases label_cases t h0 h5 with rfl | rfl | rfl | rfl | rfl <;> rfl

/-! ## Sums -/

/-- f 0, f 1, ... added one at a time onto zero. -/
def accum (f : ℕ → EReal) : ℕ → EReal
  | 0 => 0 + f 0
  | n + 1 => accum f n + f (n + 1)

theorem accum_eq_sum (f : ℕ → EReal) (n : ℕ) : accum f n = ∑ s ∈ Finset.range (n + 1), f s := by
  induction n with
  | zero => simp [accum]
  | succ n ih => rw [accum, ih, Finset.sum_range_succ _ (n + 1)]

/-- Row r of block t among 500 blocks of 4,000 rows. -/
def rowOf (t : Fin 500) (r : Fin 4000) : Fin 2000000 := ⟨t.val * 4000 + r.val, by omega⟩

/-- A sum over all rows is the sum over the blocks of the sums over each block's rows. -/
theorem sum_rows (f : Fin 2000000 → EReal) : ∑ n : Fin 2000000, f n = ∑ t : Fin 500, ∑ r : Fin 4000, f (rowOf t r) :=
  Cert.LibColPool.sum_blocks 500 4000 f

/-- All 500 blocks accumulated one at a time are the sum over all rows. -/
theorem accum_blocks (f : Fin 2000000 → EReal) :
    accum (fun s => if h : s < 500 then ∑ r : Fin 4000, f (rowOf ⟨s, h⟩ r) else 0) 499 = ∑ n : Fin 2000000, f n := by
  rw [accum_eq_sum, sum_rows, ← Fin.sum_univ_eq_sum_range (fun s => if h : s < 500 then ∑ r : Fin 4000, f (rowOf ⟨s, h⟩ r) else 0) 500]
  refine Finset.sum_congr rfl fun t _ => ?_
  rw [dif_pos t.isLt]

/-! ## A task's mean loss, as one function of the argument arrays -/

/-- One row's loss: the sum over the row's K columns of the column's loss, the column being below the row's target
    T n or not, weighted by the class weight of the row's label L n. -/
def rowLoss {K : Nat} (X : (⟨2, ![2000000, K]⟩ : Shape).Idx → EReal) (T L : (⟨1, ![2000000]⟩ : Shape).Idx → BitVec 32)
    (CW : (⟨1, ![5]⟩ : Shape).Idx → EReal) (n : Fin 2000000) : EReal :=
  ∑ q : Fin K, term (X (ix2 n q)) (IntOp.cmpi .slt (BitVec.ofNat 32 q.val) (T (ix1 n)))
    (pick (fun k => CW (ix1 k)) (L (ix1 n)))

/-- The sum of all rows' losses times the reciprocal of the number of entries. -/
def meanLoss {K : Nat} (X : (⟨2, ![2000000, K]⟩ : Shape).Idx → EReal) (T L : (⟨1, ![2000000]⟩ : Shape).Idx → BitVec 32)
    (CW : (⟨1, ![5]⟩ : Shape).Idx → EReal) (inv : EReal) : EReal :=
  (∑ n : Fin 2000000, rowLoss X T L CW n) * inv

/-- Every class label lies in 0..4, read as a signed integer. -/
def InRange (L : (⟨1, ![2000000]⟩ : Shape).Idx → BitVec 32) : Prop :=
  ∀ i, IntOp.cmpi .sge (L i) 0#32 = 1#1 ∧ IntOp.cmpi .slt (L i) 5#32 = 1#1

/-- The three tasks' mean losses added left to right and divided by the word 3.0. -/
def avg3 (a b d : EReal) : EReal := Ideal.div ((a + b) + d) (Ideal.ofBits .f32 0x40400000#32)

end Cert.Coral

end
-- ==== Proof.LibLayout2.lean ====
/-
  Small layout facts read at an entry: a column [M, 1] and a row [1, N] broadcast in dimensions [0, 1] to [M, N],
  a vector [N] broadcast in dimension [1] to one row [1, N], and a vector [M] recast as a column [M, 1].
-/
import Idealize.ShloMosaic.Lib.ValueIdx
import Idealize.ShloMosaic.Lib.ValueLayout
import Idealize.ShloMosaic.Lib.Pipeline.Value

noncomputable section

namespace Cert.LibLayout2

open Idealize.ShloMosaic Idealize.ShloMosaic.ValueIdx

variable {α : Type}

/-- A column broadcast over the columns reads, at (r, q), the column's entry of row r. -/
theorem bcast_col_apply {M N : Nat} (y : (⟨2, ![M, 1]⟩ : Shape).Idx → α)
    (h : (⟨2, ![M, 1]⟩ : Shape).BroadcastsInDim ⟨2, ![M, N]⟩ ![0, 1]) (r : Fin M) (q : Fin N) :
    broadcastInDim ⟨2, ![M, N]⟩ ![0, 1] h y (ix2 r q) = y (ix2 r (0 : Fin 1)) :=
  broadcastInDim_apply ![0, 1] h y (ix2 r q) (ix2 r (0 : Fin 1)) fun ax => by
    match ax with
    | ⟨0, _⟩ =>
      show r.val = if M = 1 then 0 else r.val
      split
      · have := r.isLt; omega
      · rfl
    | ⟨1, _⟩ => rfl

/-- A row broadcast over the rows reads, at (r, q), the row's entry of column q. -/
theorem bcast_row_apply {M N : Nat} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) :=
  broadcastInDim_apply ![0, 1] h y (ix2 r q) (ix2 (0 : Fin 1) q) fun ax => by
    match ax with
    | ⟨0, _⟩ => rfl
    | ⟨1, _⟩ =>
      show q.val = if N = 1 then 0 else q.val
      split
      · have := q.isLt; omega
      · rfl

/-- A vector broadcast to one row reads, at (u, q), the vector's entry q. -/
theorem bcast_vec_row_apply {N : Nat} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun ax => by
    match ax with
    | ⟨0, _⟩ =>
      show q.val = if N = 1 then 0 else q.val
      split
      · have := q.isLt; omega
      · rfl

/-- A vector recast as a column reads, at (r, u), the vector's entry r. -/
theorem shapeCast_a_a1_apply {M : Nat} (x : (⟨1, ![M]⟩ : Shape).Idx → α) (h : (⟨1, ![M]⟩ : Shape).ShapeCasts ⟨2, ![M, 1]⟩)
    (r : Fin M) (u : Fin 1) : shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    omega)

end Cert.LibLayout2

end
-- ==== Proof.KVal.lean ====
/-
  The accumulator updates and the output scalings of the loss kernel, read at an entry on the extended reals.

  The update of a task's accumulator adds to every lane the block's loss: the sum over the block's 4,000 rows of the sum
  over the row's columns of the column's loss (Spec: term), the column being below the row's target or not, weighted by
  the class weight picked for the row's label by the comparison chain (Spec: pick). The reset value is zero on every
  lane, and an output is its accumulator times the reciprocal of the task's number of entries (a named constant).
-/
import proofs.«416350_j25305947308583_2_alg».proof.Proof.KPieces
import proofs.«416350_j25305947308583_2_alg».proof.Proof.Spec
import proofs.«416350_j25305947308583_2_alg».proof.Proof.LibLayout2
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pieces

open Idealize.ShloMosaic Idealize.ShloMosaic.ValueIdx Cert.KernelIdeal Cert.KernelIdeal.Gen Cert.Coral

/-- The class weights as a table of five extended reals. -/
abbrev cwTable (x3 : Vec Ideal S5 .f32) : Fin 5 → EReal := fun k => x3 (ix1 k)

/-- One block row's loss for a task of K columns: logits X, the row's target word t, the row's label word l. -/
abbrev blockRowLoss {K : Nat} (X : (⟨2, ![4000, K]⟩ : Shape).Idx → EReal) (t l : BitVec 32) (x3 : Vec Ideal S5 .f32)
    (r : Fin 4000) : EReal :=
  ∑ q : Fin K, term (X (ix2 r q)) (IntOp.cmpi .slt (BitVec.ofNat 32 q.val) t) (pick (cwTable x3) l)

/-! ## Layout facts at an entry -/

/-- Summing a [4000, K] array over its columns: the index inserted at row r is (r, q). -/
theorem lift_row {K : Nat} (h : (⟨2, ![4000, K]⟩ : Shape).Reduces [1] S4000) (r : Fin 4000) (q : Fin K) :
    h.lift (ix1 r) q = ix2 r q := by
  funext a
  match a with
  | ⟨0, _⟩ => exact Fin.ext rfl
  | ⟨1, _⟩ => exact Fin.ext rfl

/-- Summing a column [4000, 1] over its rows: the index inserted is (r, 0). -/
theorem lift_col (h : S4000x1.Reduces [0] S1) (u : Fin 1) (r : Fin 4000) :
    h.lift (ix1 u) r = ix2 r (0 : Fin 1) := by
  funext a
  match a with
  | ⟨0, _⟩ => exact Fin.ext rfl
  | ⟨1, _⟩ => exact Fin.ext (by have := u.isLt; show u.val = 0; omega)

/-- The sum of a column over its rows, recast as a [1, 1] array, read at its entry. -/
theorem pay18_apply (v : FVec Ideal S4000x1 .f32) (i : S1x1.Idx) :
    k0_pay18 (F := Ideal) v i = ∑ r : Fin 4000, v (ix2 r (0 : Fin 1)) := by
  unfold k0_pay18
  rw [eq_ix2 i]
  refine (Cert.LibLayout2.shapeCast_a_a1_apply (M := 1) _ _ (i 0) (i 1)).trans ?_
  refine (Ideal.multiReduction_add_single _ _ _ _ _ _).trans ?_
  exact Finset.sum_congr rfl fun r _ => congrArg v (lift_col _ (i 0) r)

/-- A [1, 1] array added to every lane of the accumulator. -/
theorem pay1_apply (v : FVec Ideal S1x1 .f32) (prev : Vec Ideal S1x128 .f32) (j : S1x128.Idx) :
    k0_pay1 (F := Ideal) v prev j = prev j + v (ix2 (0 : Fin 1) (0 : Fin 1)) := by
  unfold k0_pay1
  rw [shapeCast_self, shapeCast_self]
  show prev j + broadcastTo S1x128 v broadcasts_S1x1_S1x128 j = _
  rw [broadcastTo_apply v _ j (ix2 (0 : Fin 1) (0 : Fin 1)) (fun a => by
    match a with
    | ⟨0, _⟩ => rfl
    | ⟨1, _⟩ => rfl)]

/-- The column number along axis 1 of a [4000, K] array. -/
theorem iota_cols {K : Nat} (h : (⟨2, ![4000, K]⟩ : Shape).Iotas .tc 32 [1]) :
    iota .tc (⟨2, ![4000, K]⟩ : Shape) 32 [1] h = fun j => BitVec.ofNat 32 (j 1).val :=
  funext fun j => iota_single_apply _ _ _ _ h j

/-- A column [4000, 1] spread over K columns reads, at (r, q), the column's entry of row r. -/
theorem bcast_cols {α : Type} {K : Nat} (y : S4000x1.Idx → α) (h : S4000x1.Broadcasts (⟨2, ![4000, K]⟩ : Shape)) :
    broadcastTo (⟨2, ![4000, K]⟩ : Shape) y h = fun j => y (ix2 (j 0) (0 : Fin 1)) :=
  funext fun j => broadcastTo_apply y h j (ix2 (j 0) (0 : Fin 1)) fun a => by
    match a with
    | ⟨0, _⟩ => rfl
    | ⟨1, _⟩ => rfl

/-! ## The row weights -/

/-- A one-entry load of the class weights at offset n, read at its only position, is entry n. -/
theorem ld_entry (x3 : Vec Ideal S5 .f32) (n : Nat) (hn : n < 5)
    (inb : ∀ a, (![n] : Fin 1 → Nat) a + (![1] : Fin 1 → Nat) a ≤ S5.size a)
    (h : ∀ a, (![0] : Fin 1 → Nat) a < (Rect.unit (s := S5) ![n] ![1] inb).shape.size a) :
    extractAt ![0] (View.ld x3 (Rect.unit ![n] ![1] inb)) h = x3 (ix1 ⟨n, hn⟩) := by
  unfold extractAt View.ld
  refine congrArg x3 ?_
  funext d
  match d with
  | ⟨0, _⟩ => exact Fin.ext (by simp [LoadRect.idx, Rect.unit])

/-- The block's row weights at row r are the comparison chain over the class weights at the row's label. -/
theorem rowWeights_apply (x3 : Vec Ideal S5 .f32) (x4 : Vec Ideal S4000x1 .i32) (r : Fin 4000) :
    rowWeights (F := Ideal) x3 x4 (ix2 r (0 : Fin 1)) = pick (cwTable x3) (x4 (ix2 r (0 : Fin 1))) := by
  unfold rowWeights k0_pay16 k0_pay13 k0_pay14 k0_pay15 k0_pay10
  dsimp only
  rw [shapeCast_self, ld_entry x3 0 (by omega), ld_entry x3 1 (by omega), ld_entry x3 2 (by omega),
    ld_entry x3 3 (by omega), ld_entry x3 4 (by omega)]
  rfl

/-! ## The per-row sums -/

/-- The first task's per-row sums: at row r, the sum over the four columns of the column's loss. -/
theorem pay17_apply (t : IVec S4000x1 32) (w33 : FVec Ideal S4000x1 .f32) (w37 : IVec S4000x1 1) (w38 : FVec Ideal S4000x1 .f32)
    (x0 : Vec Ideal S4000x4 .f32) (r : Fin 4000) :
    k0_pay17 (F := Ideal) t w33 w37 w38 x0 (ix2 r (0 : Fin 1))
      = ∑ q : Fin 4, term (x0 (ix2 r q)) (IntOp.cmpi .slt (BitVec.ofNat 32 q.val) (t (ix2 r (0 : Fin 1))))
          (k0_pay16 w33 w37 w38 (ix2 r (0 : Fin 1))) := by
  unfold k0_pay17
  refine (Cert.LibLayout2.shapeCast_a_a1_apply (M := 4000) _ _ r (0 : Fin 1)).trans ?_
  refine (Ideal.multiReduction_add_single _ _ _ _ _ _).trans ?_
  refine Finset.sum_congr rfl fun (q : Fin 4) _ => ?_
  rw [lift_row (K := 4) _ r q, iota_cols, bcast_cols t, bcast_cols (k0_pay16 w33 w37 w38)]
  unfold term
  simp only [← ind_signed]
  rfl

/-- A three-column task's per-row sums: at row r, the sum over the three columns of the column's loss. -/
theorem pay21_apply (t : IVec S4000x1 32) (w : FVec Ideal S4000x1 .f32) (x : Vec Ideal S4000x3 .f32) (r : Fin 4000) :
    k0_pay21 (F := Ideal) t w x (ix1 r)
      = ∑ q : Fin 3, term (x (ix2 r q)) (IntOp.cmpi .slt (BitVec.ofNat 32 q.val) (t (ix2 r (0 : Fin 1))))
          (w (ix2 r (0 : Fin 1))) := by
  unfold k0_pay21
  refine (Ideal.multiReduction_add_single _ _ _ _ _ _).trans ?_
  refine Finset.sum_congr rfl fun (q : Fin 3) _ => ?_
  rw [lift_row (K := 3) _ r q, iota_cols, bcast_cols t, bcast_cols w]
  unfold term
  simp only [← ind_signed]
  rfl

/-- The same sums recast as a column. -/
theorem pay19_apply (t : IVec S4000x1 32) (w : FVec Ideal S4000x1 .f32) (x : Vec Ideal S4000x3 .f32) (r : Fin 4000) :
    k0_pay19 (F := Ideal) t w x (ix2 r (0 : Fin 1))
      = ∑ q : Fin 3, term (x (ix2 r q)) (IntOp.cmpi .slt (BitVec.ofNat 32 q.val) (t (ix2 r (0 : Fin 1))))
          (w (ix2 r (0 : Fin 1))) :=
  (Cert.LibLayout2.shapeCast_a_a1_apply (k0_pay21 (F := Ideal) t w x) shapeCasts_S4000_S4000x1 r (0 : Fin 1)).trans
    (pay21_apply t w x r)

/-- The second task's sum over rows and its add to the accumulator are the first task's. -/
theorem pay20_apply (v : FVec Ideal S4000x1 .f32) (i : S1x1.Idx) :
    k0_pay20 (F := Ideal) v i = ∑ r : Fin 4000, v (ix2 r (0 : Fin 1)) :=
  pay18_apply v i

theorem pay2_apply (v : FVec Ideal S1x1 .f32) (prev : Vec Ideal S1x128 .f32) (j : S1x128.Idx) :
    k0_pay2 (F := Ideal) v prev j = prev j + v (ix2 (0 : Fin 1) (0 : Fin 1)) :=
  pay1_apply v prev j

/-- The third task's per-row sums recast as a column, summed over the rows and added to every lane. -/
theorem pay3_apply (v : FVec Ideal S4000 .f32) (prev : Vec Ideal S1x128 .f32) (j : S1x128.Idx) :
    k0_pay3 (F := Ideal) v prev j = prev j + ∑ r : Fin 4000, v (ix1 r) := by
  refine (pay1_apply (k0_pay18 (shapeCast S4000x1 v shapeCasts_S4000_S4000x1)) prev j).trans ?_
  rw [pay18_apply]
  congr 1
  exact Finset.sum_congr rfl fun r _ => Cert.LibLayout2.shapeCast_a_a1_apply v _ r (0 : Fin 1)

/-! ## The accumulator updates -/

theorem add0_apply (x0 : Vec Ideal S4000x4 .f32) (x3 : Vec Ideal S5 .f32) (x4 : Vec Ideal S4000x1 .i32)
    (prev : Vec Ideal S1x128 .f32) (j : S1x128.Idx) :
    add0 (F := Ideal) x0 x3 x4 prev j
      = prev j + ∑ r : Fin 4000, blockRowLoss x0 (x4 (ix2 r (0 : Fin 1))) (x4 (ix2 r (0 : Fin 1))) x3 r := by
  unfold add0
  rw [pay1_apply, pay18_apply]
  congr 1
  refine Finset.sum_congr rfl fun r _ => ?_
  rw [pay17_apply]
  have h10 : k0_pay10 (F := Ideal) x4 = x4 := by unfold k0_pay10; exact shapeCast_self _ _
  rw [h10]
  exact Finset.sum_congr rfl fun q _ => congrArg _ (rowWeights_apply x3 x4 r)

theorem add1_apply (x1 : Vec Ideal S4000x3 .f32) (x3 : Vec Ideal S5 .f32) (x4 x5 : Vec Ideal S4000x1 .i32)
    (prev : Vec Ideal S1x128 .f32) (j : S1x128.Idx) :
    add1 (F := Ideal) x1 x3 x4 x5 prev j
      = prev j + ∑ r : Fin 4000, blockRowLoss x1 (x5 (ix2 r (0 : Fin 1))) (x4 (ix2 r (0 : Fin 1))) x3 r := by
  unfold add1
  rw [pay2_apply, pay20_apply]
  congr 1
  refine Finset.sum_congr rfl fun r _ => ?_
  have h11 : k0_pay11 (F := Ideal) x5 = x5 := by unfold k0_pay11; exact shapeCast_self _ _
  rw [pay19_apply, h11, rowWeights_apply]

theorem add2_apply (x2 : Vec Ideal S4000x3 .f32) (x3 : Vec Ideal S5 .f32) (x4 x6 : Vec Ideal S4000x1 .i32)
    (prev : Vec Ideal S1x128 .f32) (j : S1x128.Idx) :
    add2 (F := Ideal) x2 x3 x4 x6 prev j
      = prev j + ∑ r : Fin 4000, blockRowLoss x2 (x6 (ix2 r (0 : Fin 1))) (x4 (ix2 r (0 : Fin 1))) x3 r := by
  unfold add2
  rw [pay3_apply]
  congr 1
  refine Finset.sum_congr rfl fun r _ => ?_
  have h12 : k0_pay12 (F := Ideal) x6 = x6 := by unfold k0_pay12; exact shapeCast_self _ _
  rw [pay21_apply, h12, rowWeights_apply]

/-! ## The reset value and the output scalings -/

/-- The reciprocal of the first task's number of entries, as the certificate's table names it. -/
theorem inv8 : Named.named (F := Ideal) Cert.KernelIdeal.κ "inv_8000000" (φ := .f32) 0x340637BD#32 = ((1 / 8000000 : ℝ) : EReal) :=
  IdealRules.named_const.ideal_named_scalar _ _ _ _ rfl

/-- The reciprocal of the other two tasks' number of entries. -/
theorem inv6 : Named.named (F := Ideal) Cert.KernelIdeal.κ "inv_6000000" (φ := .f32) 0x3432F4FC#32 = ((1 / 6000000 : ℝ) : EReal) :=
  IdealRules.named_const.ideal_named_scalar _ _ _ _ rfl

theorem reset0 : k0_pay7 (F := Ideal) = fun _ => (0 : EReal) := by
  unfold k0_pay7
  dsimp only
  rw [shapeCast_self]
  funext i
  exact Ideal.ofBits_zero_f32

theorem reset1 : k0_pay8 (F := Ideal) = fun _ => (0 : EReal) := by
  unfold k0_pay8
  dsimp only
  rw [shapeCast_self]
  funext i
  exact Ideal.ofBits_zero_f32

theorem reset2 : k0_pay9 (F := Ideal) = fun _ => (0 : EReal) := by
  unfold k0_pay9
  dsimp only
  rw [shapeCast_self]
  funext i
  exact Ideal.ofBits_zero_f32

theorem scale0 (v : Vec Ideal S1x128 .f32) (j : S1x128.Idx) :
    k0_pay4 (F := Ideal) v j = v j * ((1 / 8000000 : ℝ) : EReal) := by
  unfold k0_pay4
  show v j * Named.named (F := Ideal) Cert.KernelIdeal.κ "inv_8000000" (φ := .f32) 0x340637BD#32 = _
  rw [inv8]

theorem scale1 (v : Vec Ideal S1x128 .f32) (j : S1x128.Idx) :
    k0_pay5 (F := Ideal) v j = v j * ((1 / 6000000 : ℝ) : EReal) := by
  unfold k0_pay5
  show v j * Named.named (F := Ideal) Cert.KernelIdeal.κ "inv_6000000" (φ := .f32) 0x3432F4FC#32 = _
  rw [inv6]

theorem scale2 (v : Vec Ideal S1x128 .f32) (j : S1x128.Idx) :
    k0_pay6 (F := Ideal) v j = v j * ((1 / 6000000 : ℝ) : EReal) := by
  unfold k0_pay6
  show v j * Named.named (F := Ideal) Cert.KernelIdeal.κ "inv_6000000" (φ := .f32) 0x3432F4FC#32 = _
  rw [inv6]

end Cert.KernelIdeal.Pieces

end
-- ==== Proof.KDefs.lean ====
/-
  The input blocks of a grid point at their literal shapes, and each task's loss summed over a point's block.
-/
import proofs.«416350_j25305947308583_2_alg».proof.Proof.KVal

noncomputable section

open scoped BigOperators

namespace Cert.KernelIdeal.Pieces

open Idealize.ShloMosaic Idealize.ShloMosaic.TcCoe Idealize.ShloMosaic.ValueIdx Idealize.SL.Sem
open Cert.KernelIdeal Cert.KernelIdeal.Gen Cert.Coral

variable (m : (ℓ : Loc nD τ sig) → Buf (Elt Ideal) ℓ)

/-- The input blocks of a grid point, each at its literal shape. -/
abbrev blk0 (c : Dev nD) (t : Fin cfg0.N) : Vec Ideal S4000x4 .f32 := iblk m c 0 t
abbrev blk1 (c : Dev nD) (t : Fin cfg0.N) : Vec Ideal S4000x3 .f32 := iblk m c 1 t
abbrev blk2 (c : Dev nD) (t : Fin cfg0.N) : Vec Ideal S4000x3 .f32 := iblk m c 2 t
abbrev blk3 (c : Dev nD) (t : Fin cfg0.N) : Vec Ideal S5 .f32 := iblk m c 3 t
abbrev blk4 (c : Dev nD) (t : Fin cfg0.N) : Vec Ideal S4000x1 .i32 := iblk m c 4 t
abbrev blk5 (c : Dev nD) (t : Fin cfg0.N) : Vec Ideal S4000x1 .i32 := iblk m c 5 t
abbrev blk6 (c : Dev nD) (t : Fin cfg0.N) : Vec Ideal S4000x1 .i32 := iblk m c 6 t

/-- Task k's loss summed over the block of grid point t. -/
def inc0 (c : Dev nD) (t : Fin cfg0.N) : EReal :=
  ∑ r : Fin 4000, blockRowLoss (blk0 m c t) (blk4 m c t (ix2 r (0 : Fin 1))) (blk4 m c t (ix2 r (0 : Fin 1))) (blk3 m c t) r
def inc1 (c : Dev nD) (t : Fin cfg0.N) : EReal :=
  ∑ r : Fin 4000, blockRowLoss (blk1 m c t) (blk5 m c t (ix2 r (0 : Fin 1))) (blk4 m c t (ix2 r (0 : Fin 1))) (blk3 m c t) r
def inc2 (c : Dev nD) (t : Fin cfg0.N) : EReal :=
  ∑ r : Fin 4000, blockRowLoss (blk2 m c t) (blk6 m c t (ix2 r (0 : Fin 1))) (blk4 m c t (ix2 r (0 : Fin 1))) (blk3 m c t) r

/-- The same as functions of a natural number, zero beyond the grid. -/
def incN0 (c : Dev nD) (s : ℕ) : EReal := if h : s < cfg0.N then inc0 m c ⟨s, h⟩ else 0
def incN1 (c : Dev nD) (s : ℕ) : EReal := if h : s < cfg0.N then inc1 m c ⟨s, h⟩ else 0
def incN2 (c : Dev nD) (s : ℕ) : EReal := if h : s < cfg0.N then inc2 m c ⟨s, h⟩ else 0

end Cert.KernelIdeal.Pieces

end
-- ==== Proof.KInd.lean ====
/-
  What the three accumulators hold after each grid point, and what the three outputs receive at the last one.

  Write inc_k(t) for task k's loss summed over the block of grid point t. The first point resets the accumulators and
  adds its block, every later point adds its block to what the point before left: by induction on the point, after point
  n every lane of accumulator k holds 0 + inc_k(0) + ... + inc_k(n), added in that order. At the last point, 499, output
  k receives the accumulator just updated, times the reciprocal of the task's number of entries.
-/
import proofs.«416350_j25305947308583_2_alg».proof.Proof.KDefs

set_option maxRecDepth 16384

noncomputable section

open scoped BigOperators

namespace Cert.KernelIdeal.Pieces

open Idealize.ShloMosaic Idealize.ShloMosaic.TcCoe Idealize.ShloMosaic.ValueIdx Idealize.SL.Sem
open Cert.KernelIdeal Cert.KernelIdeal.Gen Cert.Coral

variable (m : (ℓ : Loc nD τ sig) → Buf (Elt Ideal) ℓ)

/-- The contents after a point depend on the point's number only. -/
theorem outsAt0_congr (c : Dev nD) {k k' : ℕ} (e : k = k') (hk : k < cfg0.N) (hk' : k' < cfg0.N) :
    outsAt0 m c k hk = outsAt0 m c k' hk' := by
  subst e
  rfl

/-- The accumulation's two equations. -/
theorem accum_zero (f : ℕ → EReal) : accum f 0 = 0 + f 0 := by rw [accum]
theorem accum_succ (f : ℕ → EReal) (n : ℕ) : accum f (n + 1) = accum f n + f (n + 1) := by rw [accum]

/-! ## Accumulator 0 and output 0 -/

/-- What the point before point n left in accumulator 0. -/
abbrev prev0 (c : Dev nD) (n : ℕ) (hn : n < cfg0.N) : Vec Ideal S1x128 .f32 :=
  (outsAt0 m c (n - 1) (Nat.lt_of_le_of_lt (Nat.sub_le _ _) hn)).2.2.2.1

theorem first_step0 (c : Dev nD) (n : ℕ) (hn : n < cfg0.N) (h0 : n % 500 = 0) (h1 : ¬n % 500 = 499) :
    (outsAt0 m c n hn).2.2.2.1 = add0 (blk0 m c ⟨n, hn⟩) (blk3 m c ⟨n, hn⟩) (blk4 m c ⟨n, hn⟩) (k0_pay7 (F := Ideal)) := by
  have e := congrArg (fun p => p.2.2.2.1) (outsAt0_A m c ⟨n, hn⟩ h0 h1)
  dsimp only at e
  refine e.trans ?_
  exact first_acc0 ..

theorem mid_step0 (c : Dev nD) (n : ℕ) (hn : n < cfg0.N) (h0 : ¬n % 500 = 0) (h1 : ¬n % 500 = 499) :
    (outsAt0 m c n hn).2.2.2.1 = add0 (blk0 m c ⟨n, hn⟩) (blk3 m c ⟨n, hn⟩) (blk4 m c ⟨n, hn⟩) (prev0 m c n hn) := by
  have e := congrArg (fun p => p.2.2.2.1) (outsAt0_B m c ⟨n, hn⟩ h0 h1)
  dsimp only at e
  refine e.trans ?_
  exact mid_acc0 ..

theorem last_step0 (c : Dev nD) (n : ℕ) (hn : n < cfg0.N) (h0 : ¬n % 500 = 0) (h1 : n % 500 = 499) :
    (outsAt0 m c n hn).2.2.2.1 = add0 (blk0 m c ⟨n, hn⟩) (blk3 m c ⟨n, hn⟩) (blk4 m c ⟨n, hn⟩) (prev0 m c n hn) := by
  have e := congrArg (fun p => p.2.2.2.1) (outsAt0_C m c ⟨n, hn⟩ h0 h1)
  dsimp only at e
  refine e.trans ?_
  exact last_acc0 ..

theorem out_step0 (c : Dev nD) (n : ℕ) (hn : n < cfg0.N) (h0 : ¬n % 500 = 0) (h1 : n % 500 = 499) :
    (outsAt0 m c n hn).1 = k0_pay4 (add0 (blk0 m c ⟨n, hn⟩) (blk3 m c ⟨n, hn⟩) (blk4 m c ⟨n, hn⟩) (prev0 m c n hn)) := by
  have e := congrArg (fun p => p.1) (outsAt0_C m c ⟨n, hn⟩ h0 h1)
  dsimp only at e
  refine e.trans ?_
  exact last_out0 ..

/-- One update: onto lanes all holding a, the point's block loss is added. -/
theorem add0_const (c : Dev nD) (n : ℕ) (hn : n < cfg0.N) (prev : Vec Ideal S1x128 .f32) (a : EReal) (hp : prev = fun _ => a) :
    add0 (blk0 m c ⟨n, hn⟩) (blk3 m c ⟨n, hn⟩) (blk4 m c ⟨n, hn⟩) prev = fun _ => a + incN0 m c n := by
  subst hp
  funext j
  rw [add0_apply, incN0, dif_pos hn]
  rfl

/-- After point n every lane of accumulator 0 holds inc0(0), ..., inc0(n) added in order onto zero. -/
theorem acc_inv0 (c : Dev nD) (n : ℕ) : ∀ hn : n < cfg0.N,
    (outsAt0 m c n hn).2.2.2.1 = (fun _ => accum (incN0 m c) n) := by
  have hN : cfg0.N = 500 := N_0
  induction n with
  | zero =>
    intro hn
    refine (first_step0 m c 0 hn (Nat.zero_mod _) (by omega)).trans ?_
    rw [add0_const m c 0 hn _ 0 reset0, accum_zero]
  | succ n ih =>
    intro hn
    have hp : prev0 m c (n + 1) hn = fun _ => accum (incN0 m c) n :=
      (congrArg (fun p => p.2.2.2.1) (outsAt0_congr m c (Nat.add_sub_cancel n 1) _ (Nat.lt_of_succ_lt hn))).trans
        (ih (Nat.lt_of_succ_lt hn))
    have h0 : ¬(n + 1) % 500 = 0 := by omega
    by_cases h1 : (n + 1) % 500 = 499
    · refine (last_step0 m c (n + 1) hn h0 h1).trans ?_
      rw [add0_const m c (n + 1) hn _ _ hp, accum_succ]
    · refine (mid_step0 m c (n + 1) hn h0 h1).trans ?_
      rw [add0_const m c (n + 1) hn _ _ hp, accum_succ]

/-- At the last point output 0 receives accumulator 0, just updated, times the task's reciprocal. -/
theorem out_last0 (c : Dev nD) (h : 499 < cfg0.N) :
    (outsAt0 m c 499 h).1 = (fun _ => accum (incN0 m c) 499 * ((1 / 8000000 : ℝ) : EReal)) := by
  have hp : prev0 m c 499 h = fun _ => accum (incN0 m c) 498 :=
    (congrArg (fun p => p.2.2.2.1) (outsAt0_congr m c (show (499 : ℕ) - 1 = 498 from rfl) _ (Nat.lt_of_succ_lt h))).trans
      (acc_inv0 m c 498 (Nat.lt_of_succ_lt h))
  refine (out_step0 m c 499 h (by omega) (by omega)).trans ?_
  rw [add0_const m c 499 h _ _ hp]
  funext j
  rw [scale0]
  exact congrArg (· * _) (accum_succ (incN0 m c) 498).symm

/-! ## Accumulator 1 and output 1 -/

/-- What the point before point n left in accumulator 1. -/
abbrev prev1 (c : Dev nD) (n : ℕ) (hn : n < cfg0.N) : Vec Ideal S1x128 .f32 :=
  (outsAt0 m c (n - 1) (Nat.lt_of_le_of_lt (Nat.sub_le _ _) hn)).2.2.2.2.1

theorem first_step1 (c : Dev nD) (n : ℕ) (hn : n < cfg0.N) (h0 : n % 500 = 0) (h1 : ¬n % 500 = 499) :
    (outsAt0 m c n hn).2.2.2.2.1 = add1 (blk1 m c ⟨n, hn⟩) (blk3 m c ⟨n, hn⟩) (blk4 m c ⟨n, hn⟩) (blk5 m c ⟨n, hn⟩) (k0_pay8 (F := Ideal)) := by
  have e := congrArg (fun p => p.2.2.2.2.1) (outsAt0_A m c ⟨n, hn⟩ h0 h1)
  dsimp only at e
  refine e.trans ?_
  exact first_acc1 ..

theorem mid_step1 (c : Dev nD) (n : ℕ) (hn : n < cfg0.N) (h0 : ¬n % 500 = 0) (h1 : ¬n % 500 = 499) :
    (outsAt0 m c n hn).2.2.2.2.1 = add1 (blk1 m c ⟨n, hn⟩) (blk3 m c ⟨n, hn⟩) (blk4 m c ⟨n, hn⟩) (blk5 m c ⟨n, hn⟩) (prev1 m c n hn) := by
  have e := congrArg (fun p => p.2.2.2.2.1) (outsAt0_B m c ⟨n, hn⟩ h0 h1)
  dsimp only at e
  refine e.trans ?_
  exact mid_acc1 ..

theorem last_step1 (c : Dev nD) (n : ℕ) (hn : n < cfg0.N) (h0 : ¬n % 500 = 0) (h1 : n % 500 = 499) :
    (outsAt0 m c n hn).2.2.2.2.1 = add1 (blk1 m c ⟨n, hn⟩) (blk3 m c ⟨n, hn⟩) (blk4 m c ⟨n, hn⟩) (blk5 m c ⟨n, hn⟩) (prev1 m c n hn) := by
  have e := congrArg (fun p => p.2.2.2.2.1) (outsAt0_C m c ⟨n, hn⟩ h0 h1)
  dsimp only at e
  refine e.trans ?_
  exact last_acc1 ..

theorem out_step1 (c : Dev nD) (n : ℕ) (hn : n < cfg0.N) (h0 : ¬n % 500 = 0) (h1 : n % 500 = 499) :
    (outsAt0 m c n hn).2.1 = k0_pay5 (add1 (blk1 m c ⟨n, hn⟩) (blk3 m c ⟨n, hn⟩) (blk4 m c ⟨n, hn⟩) (blk5 m c ⟨n, hn⟩) (prev1 m c n hn)) := by
  have e := congrArg (fun p => p.2.1) (outsAt0_C m c ⟨n, hn⟩ h0 h1)
  dsimp only at e
  refine e.trans ?_
  exact last_out1 ..

/-- One update: onto lanes all holding a, the point's block loss is added. -/
theorem add1_const (c : Dev nD) (n : ℕ) (hn : n < cfg0.N) (prev : Vec Ideal S1x128 .f32) (a : EReal) (hp : prev = fun _ => a) :
    add1 (blk1 m c ⟨n, hn⟩) (blk3 m c ⟨n, hn⟩) (blk4 m c ⟨n, hn⟩) (blk5 m c ⟨n, hn⟩) prev = fun _ => a + incN1 m c n := by
  subst hp
  funext j
  rw [add1_apply, incN1, dif_pos hn]
  rfl

/-- After point n every lane of accumulator 1 holds inc1(0), ..., inc1(n) added in order onto zero. -/
theorem acc_inv1 (c : Dev nD) (n : ℕ) : ∀ hn : n < cfg0.N,
    (outsAt0 m c n hn).2.2.2.2.1 = (fun _ => accum (incN1 m c) n) := by
  have hN : cfg0.N = 500 := N_0
  induction n with
  | zero =>
    intro hn
    refine (first_step1 m c 0 hn (Nat.zero_mod _) (by omega)).trans ?_
    rw [add1_const m c 0 hn _ 0 reset1, accum_zero]
  | succ n ih =>
    intro hn
    have hp : prev1 m c (n + 1) hn = fun _ => accum (incN1 m c) n :=
      (congrArg (fun p => p.2.2.2.2.1) (outsAt0_congr m c (Nat.add_sub_cancel n 1) _ (Nat.lt_of_succ_lt hn))).trans
        (ih (Nat.lt_of_succ_lt hn))
    have h0 : ¬(n + 1) % 500 = 0 := by omega
    by_cases h1 : (n + 1) % 500 = 499
    · refine (last_step1 m c (n + 1) hn h0 h1).trans ?_
      rw [add1_const m c (n + 1) hn _ _ hp, accum_succ]
    · refine (mid_step1 m c (n + 1) hn h0 h1).trans ?_
      rw [add1_const m c (n + 1) hn _ _ hp, accum_succ]

/-- At the last point output 1 receives accumulator 1, just updated, times the task's reciprocal. -/
theorem out_last1 (c : Dev nD) (h : 499 < cfg0.N) :
    (outsAt0 m c 499 h).2.1 = (fun _ => accum (incN1 m c) 499 * ((1 / 6000000 : ℝ) : EReal)) := by
  have hp : prev1 m c 499 h = fun _ => accum (incN1 m c) 498 :=
    (congrArg (fun p => p.2.2.2.2.1) (outsAt0_congr m c (show (499 : ℕ) - 1 = 498 from rfl) _ (Nat.lt_of_succ_lt h))).trans
      (acc_inv1 m c 498 (Nat.lt_of_succ_lt h))
  refine (out_step1 m c 499 h (by omega) (by omega)).trans ?_
  rw [add1_const m c 499 h _ _ hp]
  funext j
  rw [scale1]
  exact congrArg (· * _) (accum_succ (incN1 m c) 498).symm

/-! ## Accumulator 2 and output 2 -/

/-- What the point before point n left in accumulator 2. -/
abbrev prev2 (c : Dev nD) (n : ℕ) (hn : n < cfg0.N) : Vec Ideal S1x128 .f32 :=
  (outsAt0 m c (n - 1) (Nat.lt_of_le_of_lt (Nat.sub_le _ _) hn)).2.2.2.2.2

theorem first_step2 (c : Dev nD) (n : ℕ) (hn : n < cfg0.N) (h0 : n % 500 = 0) (h1 : ¬n % 500 = 499) :
    (outsAt0 m c n hn).2.2.2.2.2 = add2 (blk2 m c ⟨n, hn⟩) (blk3 m c ⟨n, hn⟩) (blk4 m c ⟨n, hn⟩) (blk6 m c ⟨n, hn⟩) (k0_pay9 (F := Ideal)) := by
  have e := congrArg (fun p => p.2.2.2.2.2) (outsAt0_A m c ⟨n, hn⟩ h0 h1)
  dsimp only at e
  refine e.trans ?_
  exact first_acc2 ..

theorem mid_step2 (c : Dev nD) (n : ℕ) (hn : n < cfg0.N) (h0 : ¬n % 500 = 0) (h1 : ¬n % 500 = 499) :
    (outsAt0 m c n hn).2.2.2.2.2 = add2 (blk2 m c ⟨n, hn⟩) (blk3 m c ⟨n, hn⟩) (blk4 m c ⟨n, hn⟩) (blk6 m c ⟨n, hn⟩) (prev2 m c n hn) := by
  have e := congrArg (fun p => p.2.2.2.2.2) (outsAt0_B m c ⟨n, hn⟩ h0 h1)
  dsimp only at e
  refine e.trans ?_
  exact mid_acc2 ..

theorem last_step2 (c : Dev nD) (n : ℕ) (hn : n < cfg0.N) (h0 : ¬n % 500 = 0) (h1 : n % 500 = 499) :
    (outsAt0 m c n hn).2.2.2.2.2 = add2 (blk2 m c ⟨n, hn⟩) (blk3 m c ⟨n, hn⟩) (blk4 m c ⟨n, hn⟩) (blk6 m c ⟨n, hn⟩) (prev2 m c n hn) := by
  have e := congrArg (fun p => p.2.2.2.2.2) (outsAt0_C m c ⟨n, hn⟩ h0 h1)
  dsimp only at e
  refine e.trans ?_
  exact last_acc2 ..

theorem out_step2 (c : Dev nD) (n : ℕ) (hn : n < cfg0.N) (h0 : ¬n % 500 = 0) (h1 : n % 500 = 499) :
    (outsAt0 m c n hn).2.2.1 = k0_pay6 (add2 (blk2 m c ⟨n, hn⟩) (blk3 m c ⟨n, hn⟩) (blk4 m c ⟨n, hn⟩) (blk6 m c ⟨n, hn⟩) (prev2 m c n hn)) := by
  have e := congrArg (fun p => p.2.2.1) (outsAt0_C m c ⟨n, hn⟩ h0 h1)
  dsimp only at e
  refine e.trans ?_
  exact last_out2 ..

/-- One update: onto lanes all holding a, the point's block loss is added. -/
theorem add2_const (c : Dev nD) (n : ℕ) (hn : n < cfg0.N) (prev : Vec Ideal S1x128 .f32) (a : EReal) (hp : prev = fun _ => a) :
    add2 (blk2 m c ⟨n, hn⟩) (blk3 m c ⟨n, hn⟩) (blk4 m c ⟨n, hn⟩) (blk6 m c ⟨n, hn⟩) prev = fun _ => a + incN2 m c n := by
  subst hp
  funext j
  rw [add2_apply, incN2, dif_pos hn]
  rfl

/-- After point n every lane of accumulator 2 holds inc2(0), ..., inc2(n) added in order onto zero. -/
theorem acc_inv2 (c : Dev nD) (n : ℕ) : ∀ hn : n < cfg0.N,
    (outsAt0 m c n hn).2.2.2.2.2 = (fun _ => accum (incN2 m c) n) := by
  have hN : cfg0.N = 500 := N_0
  induction n with
  | zero =>
    intro hn
    refine (first_step2 m c 0 hn (Nat.zero_mod _) (by omega)).trans ?_
    rw [add2_const m c 0 hn _ 0 reset2, accum_zero]
  | succ n ih =>
    intro hn
    have hp : prev2 m c (n + 1) hn = fun _ => accum (incN2 m c) n :=
      (congrArg (fun p => p.2.2.2.2.2) (outsAt0_congr m c (Nat.add_sub_cancel n 1) _ (Nat.lt_of_succ_lt hn))).trans
        (ih (Nat.lt_of_succ_lt hn))
    have h0 : ¬(n + 1) % 500 = 0 := by omega
    by_cases h1 : (n + 1) % 500 = 499
    · refine (last_step2 m c (n + 1) hn h0 h1).trans ?_
      rw [add2_const m c (n + 1) hn _ _ hp, accum_succ]
    · refine (mid_step2 m c (n + 1) hn h0 h1).trans ?_
      rw [add2_const m c (n + 1) hn _ _ hp, accum_succ]

/-- At the last point output 2 receives accumulator 2, just updated, times the task's reciprocal. -/
theorem out_last2 (c : Dev nD) (h : 499 < cfg0.N) :
    (outsAt0 m c 499 h).2.2.1 = (fun _ => accum (incN2 m c) 499 * ((1 / 6000000 : ℝ) : EReal)) := by
  have hp : prev2 m c 499 h = fun _ => accum (incN2 m c) 498 :=
    (congrArg (fun p => p.2.2.2.2.2) (outsAt0_congr m c (show (499 : ℕ) - 1 = 498 from rfl) _ (Nat.lt_of_succ_lt h))).trans
      (acc_inv2 m c 498 (Nat.lt_of_succ_lt h))
  refine (out_step2 m c 499 h (by omega) (by omega)).trans ?_
  rw [add2_const m c 499 h _ _ hp]
  funext j
  rw [scale2]
  exact congrArg (· * _) (accum_succ (incN2 m c) 498).symm

end Cert.KernelIdeal.Pieces

end
-- ==== Proof.KBlocks.lean ====
/-
  The blocks of a grid point read off the argument arrays, and the accumulated sums in closed form.

  Every blocked window's index map sends point t to block (t, 0), so entry (r, q) of the point's block of logits is the
  array's entry (4000 t + r, q); a labels window reads the label vector recast as a column, so its entry (r, 0) is the
  label of row 4000 t + r; the class weights' window is the whole table at every point. Hence a point's block loss is
  the sum of the rows' losses (Spec: rowLoss) over the block's rows, and the 500 block losses accumulated in order are
  the sum over all 2,000,000 rows.
-/
import proofs.«416350_j25305947308583_2_alg».proof.Proof.KDefs

set_option maxRecDepth 16384

noncomputable section

open scoped BigOperators

namespace Cert.KernelIdeal.Pieces

open Idealize.ShloMosaic Idealize.ShloMosaic.TcCoe Idealize.ShloMosaic.ValueIdx Idealize.SL.Sem
open Cert.KernelIdeal Cert.KernelIdeal.Gen Cert.Coral

variable (m : (ℓ : Loc nD τ sig) → Buf (Elt Ideal) ℓ)

/-! ## The index maps, decided once over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 1) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- Row r of the block of point t, among all rows. -/
def rowAt (t : Fin cfg0.N) (r : Fin 4000) : Fin 2000000 :=
  ⟨t.val * 4000 + r.val, by have := t.isLt; have hN : cfg0.N = 500 := N_0; omega⟩

/-! ## The blocks -/

/-- Entry (r, q) of the block of logits window 0 at point t is the array's entry (4000 t + r, q). -/
theorem blk0_apply (c : Dev nD) (t : Fin cfg0.N) (r : Fin 4000) (q : Fin 4) :
    blk0 m c t (ix2 r q) = m ((c : Thread nD τ).loc main_arg0) (ix2 (rowAt t r) q) := by
  obtain ⟨h0, h1⟩ := idx0 t
  show (iblk m c 0 t : Vec Ideal S4000x4 .f32) (ix2 r q) = _
  unfold iblk
  rw [View.read_apply]
  show V m c main_arg0 _ = m ((c : Thread nD τ).loc main_arg0) _
  rw [V_main_arg0 m c]
  congr 1
  funext a
  apply Fin.ext
  match a with
  | ⟨0, _⟩ => show win0_0.index t 0 * 4000 + 1 * r.val = t.val * 4000 + r.val; rw [h0]; omega
  | ⟨1, _⟩ => show win0_0.index t 1 * 4 + 1 * q.val = q.val; rw [h1]; omega

/-- Entry (r, q) of the block of logits window 1 at point t is the array's entry (4000 t + r, q). -/
theorem blk1_apply (c : Dev nD) (t : Fin cfg0.N) (r : Fin 4000) (q : Fin 3) :
    blk1 m c t (ix2 r q) = m ((c : Thread nD τ).loc main_arg1) (ix2 (rowAt t r) q) := by
  obtain ⟨h0, h1⟩ := idx1 t
  show (iblk m c 1 t : Vec Ideal S4000x3 .f32) (ix2 r q) = _
  unfold iblk
  rw [View.read_apply]
  show V m c main_arg1 _ = m ((c : Thread nD τ).loc main_arg1) _
  rw [V_main_arg1 m c]
  congr 1
  funext a
  apply Fin.ext
  match a with
  | ⟨0, _⟩ => show win0_1.index t 0 * 4000 + 1 * r.val = t.val * 4000 + r.val; rw [h0]; omega
  | ⟨1, _⟩ => show win0_1.index t 1 * 3 + 1 * q.val = q.val; rw [h1]; omega

/-- Entry (r, q) of the block of logits window 2 at point t is the array's entry (4000 t + r, q). -/
theorem blk2_apply (c : Dev nD) (t : Fin cfg0.N) (r : Fin 4000) (q : Fin 3) :
    blk2 m c t (ix2 r q) = m ((c : Thread nD τ).loc main_arg2) (ix2 (rowAt t r) q) := by
  obtain ⟨h0, h1⟩ := idx2 t
  show (iblk m c 2 t : Vec Ideal S4000x3 .f32) (ix2 r q) = _
  unfold iblk
  rw [View.read_apply]
  show V m c main_arg2 _ = m ((c : Thread nD τ).loc main_arg2) _
  rw [V_main_arg2 m c]
  congr 1
  funext a
  apply Fin.ext
  match a with
  | ⟨0, _⟩ => show win0_2.index t 0 * 4000 + 1 * r.val = t.val * 4000 + r.val; rw [h0]; omega
  | ⟨1, _⟩ => show win0_2.index t 1 * 3 + 1 * q.val = q.val; rw [h1]; omega

/-- The class weights' block is the whole table at every point. -/
theorem blk3_apply (c : Dev nD) (t : Fin cfg0.N) (k : Fin 5) :
    blk3 m c t (ix1 k) = m ((c : Thread nD τ).loc main_arg3) (ix1 k) := by
  have h0 := idx3 t
  show (iblk m c 3 t : Vec Ideal S5 .f32) (ix1 k) = _
  unfold iblk
  rw [View.read_apply]
  show V m c main_arg3 _ = m ((c : Thread nD τ).loc main_arg3) _
  rw [V_main_arg3 m c]
  congr 1
  funext a
  apply Fin.ext
  match a with
  | ⟨0, _⟩ => show win0_3.index t 0 * 5 + 1 * k.val = k.val; rw [h0]; omega

/-- The array of labels window 4: the label vector recast as a column. -/
theorem V_main_v0 (c : Dev nD) : (V m c main_v0 : S2000000x1.Idx → BitVec 32)
    = shapeCast S2000000x1 (m ((c : Thread nD τ).loc main_arg4)) shapeCasts_S2000000_S2000000x1 := by
  show StableHlo.after hostOps0 (fun b => m (c, b)) (Proc.devRef .tc main_v0) = _
  after_results
  rfl

/-- Entry (r, 0) of the block of labels window 4 at point t is the label of row 4000 t + r. -/
theorem blk4_apply (c : Dev nD) (t : Fin cfg0.N) (r : Fin 4000) :
    blk4 m c t (ix2 r (0 : Fin 1)) = m ((c : Thread nD τ).loc main_arg4) (ix1 (rowAt t r)) := by
  obtain ⟨h0, h1⟩ := idx4 t
  show (iblk m c 4 t : Vec Ideal S4000x1 .i32) (ix2 r (0 : Fin 1)) = _
  unfold iblk
  rw [View.read_apply]
  show (V m c main_v0 : S2000000x1.Idx → BitVec 32) _ = _
  rw [V_main_v0 m c]
  refine Eq.trans (congrArg _ ?_) (Cert.LibLayout2.shapeCast_a_a1_apply (M := 2000000) _ shapeCasts_S2000000_S2000000x1 (rowAt t r) (0 : Fin 1))
  funext a
  apply Fin.ext
  match a with
  | ⟨0, _⟩ => show win0_4.index t 0 * 4000 + 1 * r.val = t.val * 4000 + r.val; rw [h0]; omega
  | ⟨1, _⟩ => show win0_4.index t 1 * 1 + 1 * 0 = 0; rw [h1]

/-- The array of labels window 5: the label vector recast as a column. -/
theorem V_main_v1 (c : Dev nD) : (V m c main_v1 : S2000000x1.Idx → BitVec 32)
    = shapeCast S2000000x1 (m ((c : Thread nD τ).loc main_arg5)) shapeCasts_S2000000_S2000000x1 := by
  show StableHlo.after hostOps0 (fun b => m (c, b)) (Proc.devRef .tc main_v1) = _
  after_results
  rfl

/-- Entry (r, 0) of the block of labels window 5 at point t is the label of row 4000 t + r. -/
theorem blk5_apply (c : Dev nD) (t : Fin cfg0.N) (r : Fin 4000) :
    blk5 m c t (ix2 r (0 : Fin 1)) = m ((c : Thread nD τ).loc main_arg5) (ix1 (rowAt t r)) := by
  obtain ⟨h0, h1⟩ := idx5 t
  show (iblk m c 5 t : Vec Ideal S4000x1 .i32) (ix2 r (0 : Fin 1)) = _
  unfold iblk
  rw [View.read_apply]
  show (V m c main_v1 : S2000000x1.Idx → BitVec 32) _ = _
  rw [V_main_v1 m c]
  refine Eq.trans (congrArg _ ?_) (Cert.LibLayout2.shapeCast_a_a1_apply (M := 2000000) _ shapeCasts_S2000000_S2000000x1 (rowAt t r) (0 : Fin 1))
  funext a
  apply Fin.ext
  match a with
  | ⟨0, _⟩ => show win0_5.index t 0 * 4000 + 1 * r.val = t.val * 4000 + r.val; rw [h0]; omega
  | ⟨1, _⟩ => show win0_5.index t 1 * 1 + 1 * 0 = 0; rw [h1]

/-- The array of labels window 6: the label vector recast as a column. -/
theorem V_main_v2 (c : Dev nD) : (V m c main_v2 : S2000000x1.Idx → BitVec 32)
    = shapeCast S2000000x1 (m ((c : Thread nD τ).loc main_arg6)) shapeCasts_S2000000_S2000000x1 := by
  show StableHlo.after hostOps0 (fun b => m (c, b)) (Proc.devRef .tc main_v2) = _
  after_results
  rfl

/-- Entry (r, 0) of the block of labels window 6 at point t is the label of row 4000 t + r. -/
theorem blk6_apply (c : Dev nD) (t : Fin cfg0.N) (r : Fin 4000) :
    blk6 m c t (ix2 r (0 : Fin 1)) = m ((c : Thread nD τ).loc main_arg6) (ix1 (rowAt t r)) := by
  obtain ⟨h0, h1⟩ := idx6 t
  show (iblk m c 6 t : Vec Ideal S4000x1 .i32) (ix2 r (0 : Fin 1)) = _
  unfold iblk
  rw [View.read_apply]
  show (V m c main_v2 : S2000000x1.Idx → BitVec 32) _ = _
  rw [V_main_v2 m c]
  refine Eq.trans (congrArg _ ?_) (Cert.LibLayout2.shapeCast_a_a1_apply (M := 2000000) _ shapeCasts_S2000000_S2000000x1 (rowAt t r) (0 : Fin 1))
  funext a
  apply Fin.ext
  match a with
  | ⟨0, _⟩ => show win0_6.index t 0 * 4000 + 1 * r.val = t.val * 4000 + r.val; rw [h0]; omega
  | ⟨1, _⟩ => show win0_6.index t 1 * 1 + 1 * 0 = 0; rw [h1]

/-! ## The accumulated sums -/

/-- Task 0's block losses are the sums of the rows' losses over each block's rows. -/
theorem incN0_eq (c : Dev nD) :
    incN0 m c = fun s => if h : s < 500 then ∑ r : Fin 4000, rowLoss (K := 4) (m ((c : Thread nD τ).loc main_arg0))
      (m ((c : Thread nD τ).loc main_arg4)) (m ((c : Thread nD τ).loc main_arg4)) (m ((c : Thread nD τ).loc main_arg3)) (rowOf ⟨s, h⟩ r) else 0 := by
  have hN : cfg0.N = 500 := N_0
  funext s
  by_cases h : s < 500
  · have h' : s < cfg0.N := hN ▸ h
    rw [incN0, dif_pos h', dif_pos h, inc0]
    refine Finset.sum_congr rfl fun r _ => ?_
    unfold rowLoss
    refine Finset.sum_congr rfl fun q _ => ?_
    rw [blk0_apply, blk4_apply]
    have e3 : cwTable (blk3 m c ⟨s, h'⟩) = fun k => m ((c : Thread nD τ).loc main_arg3) (ix1 k) := funext fun k => blk3_apply m c ⟨s, h'⟩ k
    rw [e3]
    rfl
  · have h' : ¬ s < cfg0.N := hN ▸ h
    rw [incN0, dif_neg h', dif_neg h]

/-- All 500 points' block losses of task 0, accumulated in order, are the sum over all rows. -/
theorem acc_total0 (c : Dev nD) :
    accum (incN0 m c) 499 = ∑ n : Fin 2000000, rowLoss (K := 4) (m ((c : Thread nD τ).loc main_arg0))
      (m ((c : Thread nD τ).loc main_arg4)) (m ((c : Thread nD τ).loc main_arg4)) (m ((c : Thread nD τ).loc main_arg3)) n := by
  rw [incN0_eq]
  exact accum_blocks _

/-- Task 1's block losses are the sums of the rows' losses over each block's rows. -/
theorem incN1_eq (c : Dev nD) :
    incN1 m c = fun s => if h : s < 500 then ∑ r : Fin 4000, rowLoss (K := 3) (m ((c : Thread nD τ).loc main_arg1))
      (m ((c : Thread nD τ).loc main_arg5)) (m ((c : Thread nD τ).loc main_arg4)) (m ((c : Thread nD τ).loc main_arg3)) (rowOf ⟨s, h⟩ r) else 0 := by
  have hN : cfg0.N = 500 := N_0
  funext s
  by_cases h : s < 500
  · have h' : s < cfg0.N := hN ▸ h
    rw [incN1, dif_pos h', dif_pos h, inc1]
    refine Finset.sum_congr rfl fun r _ => ?_
    unfold rowLoss
    refine Finset.sum_congr rfl fun q _ => ?_
    rw [blk1_apply, blk5_apply, blk4_apply]
    have e3 : cwTable (blk3 m c ⟨s, h'⟩) = fun k => m ((c : Thread nD τ).loc main_arg3) (ix1 k) := funext fun k => blk3_apply m c ⟨s, h'⟩ k
    rw [e3]
    rfl
  · have h' : ¬ s < cfg0.N := hN ▸ h
    rw [incN1, dif_neg h', dif_neg h]

/-- All 500 points' block losses of task 1, accumulated in order, are the sum over all rows. -/
theorem acc_total1 (c : Dev nD) :
    accum (incN1 m c) 499 = ∑ n : Fin 2000000, rowLoss (K := 3) (m ((c : Thread nD τ).loc main_arg1))
      (m ((c : Thread nD τ).loc main_arg5)) (m ((c : Thread nD τ).loc main_arg4)) (m ((c : Thread nD τ).loc main_arg3)) n := by
  rw [incN1_eq]
  exact accum_blocks _

/-- Task 2's block losses are the sums of the rows' losses over each block's rows. -/
theorem incN2_eq (c : Dev nD) :
    incN2 m c = fun s => if h : s < 500 then ∑ r : Fin 4000, rowLoss (K := 3) (m ((c : Thread nD τ).loc main_arg2))
      (m ((c : Thread nD τ).loc main_arg6)) (m ((c : Thread nD τ).loc main_arg4)) (m ((c : Thread nD τ).loc main_arg3)) (rowOf ⟨s, h⟩ r) else 0 := by
  have hN : cfg0.N = 500 := N_0
  funext s
  by_cases h : s < 500
  · have h' : s < cfg0.N := hN ▸ h
    rw [incN2, dif_pos h', dif_pos h, inc2]
    refine Finset.sum_congr rfl fun r _ => ?_
    unfold rowLoss
    refine Finset.sum_congr rfl fun q _ => ?_
    rw [blk2_apply, blk6_apply, blk4_apply]
    have e3 : cwTable (blk3 m c ⟨s, h'⟩) = fun k => m ((c : Thread nD τ).loc main_arg3) (ix1 k) := funext fun k => blk3_apply m c ⟨s, h'⟩ k
    rw [e3]
    rfl
  · have h' : ¬ s < cfg0.N := hN ▸ h
    rw [incN2, dif_neg h', dif_neg h]

/-- All 500 points' block losses of task 2, accumulated in order, are the sum over all rows. -/
theorem acc_total2 (c : Dev nD) :
    accum (incN2 m c) 499 = ∑ n : Fin 2000000, rowLoss (K := 3) (m ((c : Thread nD τ).loc main_arg2))
      (m ((c : Thread nD τ).loc main_arg6)) (m ((c : Thread nD τ).loc main_arg4)) (m ((c : Thread nD τ).loc main_arg3)) n := by
  rw [incN2_eq]
  exact accum_blocks _

end Cert.KernelIdeal.Pieces

end
-- ==== Proof.KTail.lean ====
/-
  The lines after the region, read over ANY contents of the device's buffers.

  Each of the three outputs is one row of 128 lanes. One line takes entry (0, 0) of an output as a 1 x 1 array and the
  next reads that array as a scalar; when the output holds one number on every lane, the scalar is that number, whatever
  else the buffers hold. The last three lines add the three scalars left to right and divide the sum by the word 3.0
  (Spec: avg3). Nothing here looks inside the contents: they are a variable, and so are the three numbers.
-/
import proofs.«416350_j25305947308583_2_alg».proof.Proof.Gen.KernelIdeal.Launch
import proofs.«416350_j25305947308583_2_alg».proof.Proof.Spec
import Idealize.ShloMosaic.Lib.StableHlo.Run

noncomputable section

namespace Cert.KernelIdeal.Tail

open Idealize.ShloMosaic Idealize.ShloMosaic.TcCoe Idealize.SL.Sem
open Cert.KernelIdeal Cert.KernelIdeal.Gen Cert.Coral

variable (W : Valuation τ sig (Elt Ideal))

/-- Entry (0, 0) of output 0 as a scalar, when the output holds `a` on every lane. -/
theorem scalar_v5 (a : EReal)
    (h0 : W (Proc.devRef .tc main_v3_0) = (fun _ => a : (⟨S1x128, .f32⟩ : BufTy).Contents (Elt Ideal))) :
    StableHlo.after (hostOps1 (F := Ideal)) W (Proc.devRef .tc main_v5)
      = (fun _ => a : (⟨S_, .f32⟩ : BufTy).Contents (Elt Ideal)) := by
  after_results
  rw [h0]
  rfl

/-- Entry (0, 0) of output 1 as a scalar, when the output holds `b` on every lane. -/
theorem scalar_v7 (b : EReal)
    (h1 : W (Proc.devRef .tc main_v3_1) = (fun _ => b : (⟨S1x128, .f32⟩ : BufTy).Contents (Elt Ideal))) :
    StableHlo.after (hostOps1 (F := Ideal)) W (Proc.devRef .tc main_v7)
      = (fun _ => b : (⟨S_, .f32⟩ : BufTy).Contents (Elt Ideal)) := by
  after_results
  rw [h1]
  rfl

/-- Entry (0, 0) of output 2 as a scalar, when the output holds `d` on every lane. -/
theorem scalar_v9 (d : EReal)
    (h2 : W (Proc.devRef .tc main_v3_2) = (fun _ => d : (⟨S1x128, .f32⟩ : BufTy).Contents (Elt Ideal))) :
    StableHlo.after (hostOps1 (F := Ideal)) W (Proc.devRef .tc main_v9)
      = (fun _ => d : (⟨S_, .f32⟩ : BufTy).Contents (Elt Ideal)) := by
  after_results
  rw [h2]
  rfl

/-- The three scalars added left to right and divided by the word 3.0. -/
theorem avg_v12 (a b d : EReal)
    (h0 : W (Proc.devRef .tc main_v3_0) = (fun _ => a : (⟨S1x128, .f32⟩ : BufTy).Contents (Elt Ideal)))
    (h1 : W (Proc.devRef .tc main_v3_1) = (fun _ => b : (⟨S1x128, .f32⟩ : BufTy).Contents (Elt Ideal)))
    (h2 : W (Proc.devRef .tc main_v3_2) = (fun _ => d : (⟨S1x128, .f32⟩ : BufTy).Contents (Elt Ideal))) :
    StableHlo.after (hostOps1 (F := Ideal)) W (Proc.devRef .tc main_v12)
      = (fun _ => avg3 a b d : (⟨S_, .f32⟩ : BufTy).Contents (Elt Ideal)) := by
  after_results
  rw [h0, h1, h2]
  rfl

end Cert.KernelIdeal.Tail

end
-- ==== Proof.KRun.lean ====
/-
  The idealized kernel's run, read: its four results as functions of the argument arrays.

  Each of the three outputs is written back once, after the last grid point, and its one block is the whole array of one
  row of 128 lanes; every lane holds the task's mean loss (Spec: meanLoss): the 500 block losses accumulated in order are
  the sum over all rows, and the last point scales that sum by the reciprocal of the task's number of entries. The lines
  after the region take entry (0, 0) of each output as a scalar, add the three scalars left to right and divide by the
  word 3.0 (Spec: avg3). The seven argument arrays end as they were.
-/
import proofs.«416350_j25305947308583_2_alg».proof.Proof.KInd
import proofs.«416350_j25305947308583_2_alg».proof.Proof.KBlocks
import proofs.«416350_j25305947308583_2_alg».proof.Proof.KTail
import Idealize.ShloMosaic.Lib.Pipeline.Value
import Idealize.ShloMosaic.Lib.StableHlo.Run

set_option maxRecDepth 16384

noncomputable section

open scoped BigOperators

namespace Cert.KernelIdeal.Pieces

open Idealize.ShloMosaic Idealize.ShloMosaic.TcCoe Idealize.ShloMosaic.ValueIdx Idealize.SL.Sem
open Idealize.ShloMosaic.Pipeline (Dat)
open Cert.KernelIdeal Cert.KernelIdeal.Gen Cert.Coral

variable (m : (ℓ : Loc nD τ sig) → Buf (Elt Ideal) ℓ) (ρ : Dev nD → PrngReg)

/-- The three tasks' mean losses, of the argument arrays. -/
def mean0 (c : Dev nD) : EReal :=
  meanLoss (K := 4) (m ((c : Thread nD τ).loc main_arg0)) (m ((c : Thread nD τ).loc main_arg4))
    (m ((c : Thread nD τ).loc main_arg4)) (m ((c : Thread nD τ).loc main_arg3)) ((1 / 8000000 : ℝ) : EReal)
def mean1 (c : Dev nD) : EReal :=
  meanLoss (K := 3) (m ((c : Thread nD τ).loc main_arg1)) (m ((c : Thread nD τ).loc main_arg5))
    (m ((c : Thread nD τ).loc main_arg4)) (m ((c : Thread nD τ).loc main_arg3)) ((1 / 6000000 : ℝ) : EReal)
def mean2 (c : Dev nD) : EReal :=
  meanLoss (K := 3) (m ((c : Thread nD τ).loc main_arg2)) (m ((c : Thread nD τ).loc main_arg6))
    (m ((c : Thread nD τ).loc main_arg4)) (m ((c : Thread nD τ).loc main_arg3)) ((1 / 6000000 : ℝ) : EReal)

/-- The grid has a point 499, its last. -/
theorem lastLt : 499 < cfg0.N := by rw [show cfg0.N = 500 from N_0]; omega

/-- The last grid point. -/
abbrev tLast : Fin cfg0.N := ⟨499, lastLt⟩

/-- At the last point output 0's staging buffer holds the task's mean on every lane. -/
theorem out_at0 (c : Dev nD) (t : Fin cfg0.N) (ht : t.val = 499) :
    (outsAt0 m c t.val t.isLt).1 = fun _ => mean0 m c := by
  have e := congrArg (fun p => p.1) (outsAt0_congr m c ht t.isLt lastLt)
  rw [e, out_last0 m c lastLt, acc_total0]
  unfold mean0 meanLoss
  rfl

/-- Output 0's one write-back, at the last point, writes the task's mean on every lane. -/
theorem flushed7 (c : Dev nD) (t : Fin cfg0.N) (hf : (cfg0.win 7).flush t = true) :
    (dats m 0 c).flushed 7 t
      = ((cfg0.win 7).blk t).view.read (Elt Ideal) (fun _ => mean0 m c : Buf (Elt Ideal) ((c : Thread nD τ).loc main_v3_0)) := by
  have hN : cfg0.N = 500 := N_0
  have h499 : t.val = 499 := by have := (flush0_7 t).mp hf; have := t.isLt; omega
  show (cfg0.win 7).cut (grid0.coords t) ((dats m 0 c).after 7 t) = _
  rw [after0_7, out_at0 m c t h499]
  funext y
  rw [View.read_apply, cast_eq]
/-- So output 0's array ends holding the task's mean on every lane: the last point's block covers it. -/
theorem final7 (c : Dev nD) : (dats m 0 c).arrAt 7 cfg0.N = (fun _ => mean0 m c : Buf (Elt Ideal) ((c : Thread nD τ).loc main_v3_0)) :=
  (dats m 0 c).arrAt_eq_of_cover 7 _ (flushed7 m c) fun i =>
    ⟨tLast, (flush0_7 tLast).mpr rfl, by
      show i ∈ ((View.whole main_v3_0).slice (win0_7.rect tLast)).set
      rw [View.set_slice_whole, Rect.mem_set_unit]
      intro a
      have hr : (i 0 : Nat) < 1 := (i 0).isLt
      have hl : (i 1 : Nat) < 128 := (i 1).isLt
      match a with
      | ⟨0, _⟩ =>
        show win0_7.index tLast 0 * win0_7.size 0 ≤ (i 0 : Nat)
          ∧ (i 0 : Nat) < win0_7.index tLast 0 * win0_7.size 0 + win0_7.xsize (grid0.coords tLast) 0
        rw [show win0_7.index tLast 0 * win0_7.size 0 = 0 from by decide +kernel,
          show win0_7.xsize (grid0.coords tLast) 0 = 1 from by decide +kernel]
        omega
      | ⟨1, _⟩ =>
        show win0_7.index tLast 1 * win0_7.size 1 ≤ (i 1 : Nat)
          ∧ (i 1 : Nat) < win0_7.index tLast 1 * win0_7.size 1 + win0_7.xsize (grid0.coords tLast) 1
        rw [show win0_7.index tLast 1 * win0_7.size 1 = 0 from by decide +kernel,
          show win0_7.xsize (grid0.coords tLast) 1 = 128 from by decide +kernel]
        omega⟩

/-- At the last point output 1's staging buffer holds the task's mean on every lane. -/
theorem out_at1 (c : Dev nD) (t : Fin cfg0.N) (ht : t.val = 499) :
    (outsAt0 m c t.val t.isLt).2.1 = fun _ => mean1 m c := by
  have e := congrArg (fun p => p.2.1) (outsAt0_congr m c ht t.isLt lastLt)
  rw [e, out_last1 m c lastLt, acc_total1]
  unfold mean1 meanLoss
  rfl

/-- Output 1's one write-back, at the last point, writes the task's mean on every lane. -/
theorem flushed8 (c : Dev nD) (t : Fin cfg0.N) (hf : (cfg0.win 8).flush t = true) :
    (dats m 0 c).flushed 8 t
      = ((cfg0.win 8).blk t).view.read (Elt Ideal) (fun _ => mean1 m c : Buf (Elt Ideal) ((c : Thread nD τ).loc main_v3_1)) := by
  have hN : cfg0.N = 500 := N_0
  have h499 : t.val = 499 := by have := (flush0_8 t).mp hf; have := t.isLt; omega
  show (cfg0.win 8).cut (grid0.coords t) ((dats m 0 c).after 8 t) = _
  rw [after0_8, out_at1 m c t h499]
  funext y
  rw [View.read_apply, cast_eq]
/-- So output 1's array ends holding the task's mean on every lane: the last point's block covers it. -/
theorem final8 (c : Dev nD) : (dats m 0 c).arrAt 8 cfg0.N = (fun _ => mean1 m c : Buf (Elt Ideal) ((c : Thread nD τ).loc main_v3_1)) :=
  (dats m 0 c).arrAt_eq_of_cover 8 _ (flushed8 m c) fun i =>
    ⟨tLast, (flush0_8 tLast).mpr rfl, by
      show i ∈ ((View.whole main_v3_1).slice (win0_8.rect tLast)).set
      rw [View.set_slice_whole, Rect.mem_set_unit]
      intro a
      have hr : (i 0 : Nat) < 1 := (i 0).isLt
      have hl : (i 1 : Nat) < 128 := (i 1).isLt
      match a with
      | ⟨0, _⟩ =>
        show win0_8.index tLast 0 * win0_8.size 0 ≤ (i 0 : Nat)
          ∧ (i 0 : Nat) < win0_8.index tLast 0 * win0_8.size 0 + win0_8.xsize (grid0.coords tLast) 0
        rw [show win0_8.index tLast 0 * win0_8.size 0 = 0 from by decide +kernel,
          show win0_8.xsize (grid0.coords tLast) 0 = 1 from by decide +kernel]
        omega
      | ⟨1, _⟩ =>
        show win0_8.index tLast 1 * win0_8.size 1 ≤ (i 1 : Nat)
          ∧ (i 1 : Nat) < win0_8.index tLast 1 * win0_8.size 1 + win0_8.xsize (grid0.coords tLast) 1
        rw [show win0_8.index tLast 1 * win0_8.size 1 = 0 from by decide +kernel,
          show win0_8.xsize (grid0.coords tLast) 1 = 128 from by decide +kernel]
        omega⟩

/-- At the last point output 2's staging buffer holds the task's mean on every lane. -/
theorem out_at2 (c : Dev nD) (t : Fin cfg0.N) (ht : t.val = 499) :
    (outsAt0 m c t.val t.isLt).2.2.1 = fun _ => mean2 m c := by
  have e := congrArg (fun p => p.2.2.1) (outsAt0_congr m c ht t.isLt lastLt)
  rw [e, out_last2 m c lastLt, acc_total2]
  unfold mean2 meanLoss
  rfl

/-- Output 2's one write-back, at the last point, writes the task's mean on every lane. -/
theorem flushed9 (c : Dev nD) (t : Fin cfg0.N) (hf : (cfg0.win 9).flush t = true) :
    (dats m 0 c).flushed 9 t
      = ((cfg0.win 9).blk t).view.read (Elt Ideal) (fun _ => mean2 m c : Buf (Elt Ideal) ((c : Thread nD τ).loc main_v3_2)) := by
  have hN : cfg0.N = 500 := N_0
  have h499 : t.val = 499 := by have := (flush0_9 t).mp hf; have := t.isLt; omega
  show (cfg0.win 9).cut (grid0.coords t) ((dats m 0 c).after 9 t) = _
  rw [after0_9, out_at2 m c t h499]
  funext y
  rw [View.read_apply, cast_eq]
/-- So output 2's array ends holding the task's mean on every lane: the last point's block covers it. -/
theorem final9 (c : Dev nD) : (dats m 0 c).arrAt 9 cfg0.N = (fun _ => mean2 m c : Buf (Elt Ideal) ((c : Thread nD τ).loc main_v3_2)) :=
  (dats m 0 c).arrAt_eq_of_cover 9 _ (flushed9 m c) fun i =>
    ⟨tLast, (flush0_9 tLast).mpr rfl, by
      show i ∈ ((View.whole main_v3_2).slice (win0_9.rect tLast)).set
      rw [View.set_slice_whole, Rect.mem_set_unit]
      intro a
      have hr : (i 0 : Nat) < 1 := (i 0).isLt
      have hl : (i 1 : Nat) < 128 := (i 1).isLt
      match a with
      | ⟨0, _⟩ =>
        show win0_9.index tLast 0 * win0_9.size 0 ≤ (i 0 : Nat)
          ∧ (i 0 : Nat) < win0_9.index tLast 0 * win0_9.size 0 + win0_9.xsize (grid0.coords tLast) 0
        rw [show win0_9.index tLast 0 * win0_9.size 0 = 0 from by decide +kernel,
          show win0_9.xsize (grid0.coords tLast) 0 = 1 from by decide +kernel]
        omega
      | ⟨1, _⟩ =>
        show win0_9.index tLast 1 * win0_9.size 1 ≤ (i 1 : Nat)
          ∧ (i 1 : Nat) < win0_9.index tLast 1 * win0_9.size 1 + win0_9.xsize (grid0.coords tLast) 1
        rw [show win0_9.index tLast 1 * win0_9.size 1 = 0 from by decide +kernel,
          show win0_9.xsize (grid0.coords tLast) 1 = 128 from by decide +kernel]
        omega⟩

/-! ## The lines after the region -/

/-- The region's exit contents of the three output arrays. -/
theorem exit7 (c : Dev nD) :
    Pipeline.withArrays (cfgs 0).spec c (V0 m c) (fun w => (dats m 0 c).arrAt w (cfgs 0).N) (Proc.devRef .tc main_v3_0)
      = (fun _ => mean0 m c : Buf (Elt Ideal) ((c : Thread nD τ).loc main_v3_0)) :=
  (Pipeline.withArrays_arr spec0 launch0.win.arr_inj c _ _ 7).trans (final7 m c)
theorem exit8 (c : Dev nD) :
    Pipeline.withArrays (cfgs 0).spec c (V0 m c) (fun w => (dats m 0 c).arrAt w (cfgs 0).N) (Proc.devRef .tc main_v3_1)
      = (fun _ => mean1 m c : Buf (Elt Ideal) ((c : Thread nD τ).loc main_v3_1)) :=
  (Pipeline.withArrays_arr spec0 launch0.win.arr_inj c _ _ 8).trans (final8 m c)
theorem exit9 (c : Dev nD) :
    Pipeline.withArrays (cfgs 0).spec c (V0 m c) (fun w => (dats m 0 c).arrAt w (cfgs 0).N) (Proc.devRef .tc main_v3_2)
      = (fun _ => mean2 m c : Buf (Elt Ideal) ((c : Thread nD τ).loc main_v3_2)) :=
  (Pipeline.withArrays_arr spec0 launch0.win.arr_inj c _ _ 9).trans (final9 m c)

/-- Entry (0, 0) of output 0, as a scalar: the task's mean. The output holds the mean on every lane (exit7), and the
    lines after the region read such an output as that number whatever else the buffers hold. -/
theorem tail_v5 (c : Dev nD) :
    Pipeline.afterTail₀ cfgs (dats m) 0 (V0 m) [hostOps1] c main_v5 = fun _ => mean0 m c := by
  unfold Pipeline.afterTail₀
  show StableHlo.after hostOps1 _ (Proc.devRef .tc main_v5) = _
  exact Tail.scalar_v5 _ (mean0 m c) (exit7 m c)
/-- Entry (0, 0) of output 1, as a scalar: the task's mean. -/
theorem tail_v7 (c : Dev nD) :
    Pipeline.afterTail₀ cfgs (dats m) 0 (V0 m) [hostOps1] c main_v7 = fun _ => mean1 m c := by
  unfold Pipeline.afterTail₀
  show StableHlo.after hostOps1 _ (Proc.devRef .tc main_v7) = _
  exact Tail.scalar_v7 _ (mean1 m c) (exit8 m c)
/-- Entry (0, 0) of output 2, as a scalar: the task's mean. -/
theorem tail_v9 (c : Dev nD) :
    Pipeline.afterTail₀ cfgs (dats m) 0 (V0 m) [hostOps1] c main_v9 = fun _ => mean2 m c := by
  unfold Pipeline.afterTail₀
  show StableHlo.after hostOps1 _ (Proc.devRef .tc main_v9) = _
  exact Tail.scalar_v9 _ (mean2 m c) (exit9 m c)

/-- The three scalars added left to right and divided by the word 3.0. -/
theorem tail_v12 (c : Dev nD) :
    Pipeline.afterTail₀ cfgs (dats m) 0 (V0 m) [hostOps1] c main_v12
      = fun _ => avg3 (mean0 m c) (mean1 m c) (mean2 m c) := by
  unfold Pipeline.afterTail₀
  show StableHlo.after hostOps1 _ (Proc.devRef .tc main_v12) = _
  exact Tail.avg_v12 _ (mean0 m c) (mean1 m c) (mean2 m c) (exit7 m c) (exit8 m c) (exit9 m c)

/-! ## The run -/

/-- Every weakly fair execution of the idealized kernel's program terminates with its four results at the average,
    the three means, and its seven arguments unchanged. -/
theorem run : θ_run defs (onTc (τ := τ) (main (F := Ideal))) ⟨m, fun _ => 0, ρ⟩ (fun r => ∀ c : Dev nD,
      r.2.mem ((c.tc : Thread nD τ).loc main_v12) = (fun _ => avg3 (mean0 m c) (mean1 m c) (mean2 m c))
      ∧ r.2.mem ((c.tc : Thread nD τ).loc main_v5) = (fun _ => mean0 m c)
      ∧ r.2.mem ((c.tc : Thread nD τ).loc main_v7) = (fun _ => mean1 m c)
      ∧ r.2.mem ((c.tc : Thread nD τ).loc main_v9) = (fun _ => mean2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v12 (Pipeline.mem_restRefs_of main_v12 (by decide) (by decide))).trans (tail_v12 m c),
      ((h c).2 main_v5 (Pipeline.mem_restRefs_of main_v5 (by decide) (by decide))).trans (tail_v5 m c),
      ((h c).2 main_v7 (Pipeline.mem_restRefs_of main_v7 (by decide) (by decide))).trans (tail_v7 m c),
      ((h c).2 main_v9 (Pipeline.mem_restRefs_of main_v9 (by decide) (by decide))).trans (tail_v9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Pieces

end
-- ==== Proof.LibVecGather.lean ====
/-
  A vector gather, read at an entry.

  `x[idx]` of a vector x : [N] at a column of indices idx : [E, 1] is a gather whose result entry e is the vector's
  entry at the start index idx[e, 0], read as a signed integer and clamped into [0, N - 1]: the operand's one axis is
  the collapsed one and the only one the start index map names, the result has no offset axis, and the index vector
  sits on the indices' second axis, which has extent one.

  A record of dimension numbers printed with a program is this one whenever its lists are [], [0], [], [], [0], its
  index vector axis is 1 and its slice sizes are ![1] (the last field is a proof), by reflexivity; the lemma is stated
  for the record vecGather below so that it serves every such record, whatever N and E.
-/
import Idealize.ShloMosaic.Lib.ValueIdx

noncomputable section

namespace Cert.LibVecGather

open Idealize.ShloMosaic Idealize.ShloMosaic.ValueIdx

/-- What `x[idx]` of a vector x : [N] at a column of indices idx : [E, 1] lowers to. -/
abbrev vecGather (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT (e): the operand at the start index idx (e, 0), read signed and clamped into
    [0, N - 1]. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGather N E wf).start (ix1 e) idx 0 + (vecGather N E wf).batchCoord (ix1 e) 0
    + (vecGather N E wf).offCoord (ix1 e) 0 = _
  -- the operand's axis is neither a batching axis nor a kept one: only the clamped start is left
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  -- the start index of result entry (e) is read at (e, 0)
  have hsi : (vecGather N E wf).siIdx (ix1 e) ⟨List.idxOf (0 : Fin 1) (vecGather N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibVecGather

end
-- ==== Proof.RefVal1.lean ====
/-
  The reference's first task's mean (the four-column task) on the extended reals, as a function of the argument arrays.

  A task's result is the task's mean loss (Spec: meanLoss): the host's sum over every entry of the weighted loss array,
  started from zero, divided by the number of entries. The entry (n, q) of that array is the column's loss in the
  arrangement with the logistic spelled out, the square as a power and the sign on the balance (Spec: termPow), the
  indicator being "q below the row's target", the weight the class-weight table's entry at the row's label wrapped and
  clamped (Spec: look). On a label in 0..4 that entry is the one the comparison chain picks, and the two arrangements of
  the loss are one number; a division by the number of entries is the product with its reciprocal.
-/
import proofs.«416350_j25305947308583_2_alg».proof.Proof.RefRead
import proofs.«416350_j25305947308583_2_alg».proof.Proof.Spec
import proofs.«416350_j25305947308583_2_alg».proof.Proof.LibVecGather
import proofs.«416350_j25305947308583_2_alg».proof.Proof.LibLayout2
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.ValueIdx Cert.Coral

/-- The indicator array at (n, q): "q below the row's target", as a number. -/
theorem ind1 (x4 : (⟨S2000000, .i32⟩ : BufTy).Contents (Elt Ideal)) (n : Fin 2000000) (q : Fin 4) :
    ReadP.val_main_v12 (F := Ideal) x4 (ix2 n q)
      = ind (IntOp.cmpi .slt (BitVec.ofNat 32 q.val) (x4 (ix1 n))) := by
  rw [ReadP.val_main_v12_apply, ReadP.val_main_v11_apply, ReadP.val_main_v9_apply, ReadP.val_main_v7_apply,
    ReadP.val_main_v6_apply, ReadP.val_main_v10_apply, ReadP.val_main_v8_apply]
  have e : ReadP.idx_main_v8 (ReadP.idx_main_v10 (ix2 n q)) = ix1 n :=
    funext fun a => match a with | ⟨0, _⟩ => rfl
  rw [e]
  rfl

/-- The probability array at an entry: one over one plus the exponential of the negated logit. -/
theorem prob1 (x0 : (⟨S2000000x4, .f32⟩ : BufTy).Contents (Elt Ideal)) (i : S2000000x4.Idx) :
    ReadP.val_main_v5 (F := Ideal) x0 i
      = Ideal.div (Ideal.ofBits .f32 0x3F800000#32) (Ideal.ofBits .f32 0x3F800000#32 + Ideal.exp (-(x0 i))) := by
  rw [ReadP.val_main_v5_apply, ReadP.val_main_v4_apply, ReadP.val_main_cst_0_apply, ReadP.val_main_v3_apply,
    ReadP.val_main_v2_apply, ReadP.val_main_cst_apply, ReadP.val_main_v1_apply, ReadP.val_main_v0_apply]
  simp only [Ideal.hostDivf_def, Ideal.ofBits_def, Ideal.addf_def, Ideal.hostUnary_exp_def, Ideal.hostNegf_def,
    Ideal.negf_def]

/-- The index column at (n, 0): the row's label, 5 added if it is negative. -/
theorem wrap1 (x4 : (⟨S2000000, .i32⟩ : BufTy).Contents (Elt Ideal)) (n : Fin 2000000) :
    ReadP.val_main_v47 (F := Ideal) x4 (ix2 n (0 : Fin 1)) = wrap (x4 (ix1 n)) := by
  rw [ReadP.val_main_v47_apply, ReadP.val_main_v46_apply, ReadP.val_main_v43_apply, ReadP.val_main_v42_apply,
    ReadP.val_main_c_apply, ReadP.val_main_v45_apply, ReadP.val_main_v44_apply, ReadP.val_main_c_12_apply]
  have e : ReadP.idx_main_v47 (ix2 n (0 : Fin 1)) = ix1 n :=
    funext fun a => match a with | ⟨0, _⟩ => rfl
  rw [e]
  rfl

/-- The weight array at (n, q): the class-weight table's entry at the row's label wrapped and clamped. -/
theorem weight1 (x3 : (⟨S5, .f32⟩ : BufTy).Contents (Elt Ideal)) (x4 : (⟨S2000000, .i32⟩ : BufTy).Contents (Elt Ideal))
    (n : Fin 2000000) (q : Fin 4) :
    ReadP.val_main_v50 (F := Ideal) x3 x4 (ix2 n q) = look (fun k => x3 (ix1 k)) (x4 (ix1 n)) := by
  rw [ReadP.val_main_v50_apply, ReadP.val_main_v49_apply]
  have e : ReadP.idx_main_v49 (ReadP.idx_main_v50 (ix2 n q)) = ix1 n :=
    funext fun a => match a with | ⟨0, _⟩ => rfl
  rw [e]
  unfold ReadP.val_main_v48
  refine (Cert.LibVecGather.gather_vec_apply (N := 5) (E := 2000000) (by decide) _ x3 _ n).trans ?_
  unfold look
  refine congrArg (fun k : Fin 5 => x3 (ix1 k)) (Fin.ext ?_)
  show min (ReadP.val_main_v47 (F := Ideal) x4 (ix2 n (0 : Fin 1))).toInt.toNat (5 - 1)
    = min (wrap (x4 (ix1 n))).toInt.toNat (5 - 1)
  rw [wrap1]

/-- The weighted loss array at (n, q): the column's loss in the arrangement with the logistic spelled out, the square
    as a power and the sign on the balance. -/
theorem entry1 (x0 : (⟨S2000000x4, .f32⟩ : BufTy).Contents (Elt Ideal)) (x3 : (⟨S5, .f32⟩ : BufTy).Contents (Elt Ideal))
    (x4 : (⟨S2000000, .i32⟩ : BufTy).Contents (Elt Ideal)) (n : Fin 2000000) (q : Fin 4) :
    ReadP.val_main_v51 (F := Ideal) x0 x3 x4 (ix2 n q)
      = termPow (x0 (ix2 n q)) (IntOp.cmpi .slt (BitVec.ofNat 32 q.val) (x4 (ix1 n)))
          (look (fun k => x3 (ix1 k)) (x4 (ix1 n))) := by
  rw [ReadP.val_main_v51_apply, ReadP.val_main_v41_apply, ReadP.val_main_v40_apply, ReadP.val_main_v39_apply,
    ReadP.val_main_v38_apply, ReadP.val_main_v37_apply, ReadP.val_main_v36_apply, ReadP.val_main_v35_apply,
    ReadP.val_main_v34_apply, ReadP.val_main_v33_apply, ReadP.val_main_cst_11_apply, ReadP.val_main_v32_apply,
    ReadP.val_main_v31_apply, ReadP.val_main_cst_10_apply, ReadP.val_main_v30_apply, ReadP.val_main_v29_apply,
    ReadP.val_main_cst_9_apply, ReadP.val_main_v28_apply, ReadP.val_main_v27_apply, ReadP.val_main_v26_apply,
    ReadP.val_main_v25_apply, ReadP.val_main_cst_8_apply, ReadP.val_main_v24_apply, ReadP.val_main_call1_v1_apply,
    ReadP.val_main_call1_v0_apply, ReadP.val_main_cst_7_apply, ReadP.val_main_cst_6_apply, ReadP.val_main_v23_apply,
    ReadP.val_main_v22_apply, ReadP.val_main_cst_5_apply, ReadP.val_main_v21_apply, ReadP.val_main_v20_apply,
    ReadP.val_main_cst_4_apply, ReadP.val_main_v19_apply, ReadP.val_main_v18_apply, ReadP.val_main_cst_3_apply,
    ReadP.val_main_v17_apply, ReadP.val_main_v16_apply, ReadP.val_main_v15_apply, ReadP.val_main_cst_2_apply,
    ReadP.val_main_v14_apply, ReadP.val_main_v13_apply, ReadP.val_main_cst_1_apply,
    ind1, prob1, weight1]
  simp only [Ideal.mulf_def, Ideal.addf_def, Ideal.subf_def, Ideal.hostNegf_def, Ideal.negf_def, Ideal.cmpf_def,
    Ideal.ofBits_def, Ideal.hostPowf_def, Ideal.hostUnary_log_def]
  rfl

theorem task1 (x0 : (⟨S2000000x4, .f32⟩ : BufTy).Contents (Elt Ideal)) (x3 : (⟨S5, .f32⟩ : BufTy).Contents (Elt Ideal)) (x4 : (⟨S2000000, .i32⟩ : BufTy).Contents (Elt Ideal))
    (h : InRange x4) :
    Cert.ReferenceIdeal.ReadP.val_main_v53 (F := Ideal) x0 x3 x4
      = fun _ => meanLoss (K := 4) x0 x4 x4 x3 ((1 / 8000000 : ℝ) : EReal) := by
  funext i
  rw [ReadP.val_main_v53_apply, ReadP.val_main_v52_apply, ReadP.val_main_cst_13_apply, ReadP.val_main_cst_14_apply]
  simp only [Ideal.hostDivf_def, Ideal.ofBits_def]
  rw [Ideal.ofBits_zero_f32, zero_add, word_8e6, Ideal.div_coe (by norm_num), ValueIdx.sum_idx2]
  unfold meanLoss rowLoss
  refine congrArg (· * ((1 / 8000000 : ℝ) : EReal)) ?_
  refine Finset.sum_congr rfl fun n _ => Finset.sum_congr rfl fun q _ => ?_
  rw [entry1, termPow_eq, look_eq_pick _ _ (h (ix1 n)).1 (h (ix1 n)).2]

end Cert.ReferenceIdeal.RefValue

end
-- ==== Proof.RefVal23.lean ====
/-
  The reference's second and third tasks' means (the two three-column tasks) on the extended reals, as a function of the argument arrays.

  A task's result is the task's mean loss (Spec: meanLoss): the host's sum over every entry of the weighted loss array,
  started from zero, divided by the number of entries. The entry (n, q) of that array is the column's loss in the
  arrangement with the logistic spelled out, the square as a power and the sign on the balance (Spec: termPow), the
  indicator being "q below the row's target", the weight the class-weight table's entry at the row's label wrapped and
  clamped (Spec: look). On a label in 0..4 that entry is the one the comparison chain picks, and the two arrangements of
  the loss are one number; a division by the number of entries is the product with its reciprocal.
-/
import proofs.«416350_j25305947308583_2_alg».proof.Proof.RefRead
import proofs.«416350_j25305947308583_2_alg».proof.Proof.Spec
import proofs.«416350_j25305947308583_2_alg».proof.Proof.LibVecGather
import proofs.«416350_j25305947308583_2_alg».proof.Proof.LibLayout2
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.ReferenceIdeal.RefValue

open Cert.ReferenceIdeal Cert.ReferenceIdeal.Gen Idealize.ShloMosaic Idealize.ShloMosaic.ValueIdx Cert.Coral

open Cert.ReferenceIdeal.ReadP

/-- The float comparison at the extended reals is the linear order's. -/
theorem cmpf_ideal (p : CmpFPredicate) (a b : EReal) : FloatOps.cmpf (F := Ideal) (φ := .f32) p a b = Ideal.cmp p a b := rfl

/-! ## The second task (the first three-column one) -/

/-- The indicator "column q is below the row's target", as a number, at entry (n, q): the column numbers 0, 1, 2 laid
    along a row and the targets laid along a column are compared entry by entry. -/
theorem ind2 (x5 : (⟨S2000000, .i32⟩ : BufTy).Contents (Elt Ideal)) (n : Fin 2000000) (q : Fin 3) :
    val_main_v66 (F := Ideal) x5 (ix2 n q) = ind (IntOp.cmpi .slt (BitVec.ofNat 32 q.val) (x5 (ix1 n))) := by
  rw [val_main_v66_apply, val_main_v65_apply, val_main_v63_apply, val_main_v61_apply, val_main_v60_apply,
    val_main_v64_apply, val_main_v62_apply]
  have e : idx_main_v62 (idx_main_v64 (ix2 n q)) = ix1 n :=
    funext fun a => Fin.ext (by match a with | ⟨0, _⟩ => rfl)
  rw [e]
  rfl

/-- The logistic of the logit at an entry, spelled 1 / (1 + exp (-x)). -/
theorem p2 (x1 : (⟨S2000000x3, .f32⟩ : BufTy).Contents (Elt Ideal)) (i : S2000000x3.Idx) :
    val_main_v59 (F := Ideal) x1 i
      = Ideal.div (Ideal.ofBits .f32 0x3F800000#32) (Ideal.ofBits .f32 0x3F800000#32 + Ideal.exp (-(x1 i))) := by
  rw [val_main_v59_apply, val_main_v58_apply, val_main_cst_16_apply, val_main_v57_apply, val_main_v56_apply,
    val_main_cst_15_apply, val_main_v55_apply, val_main_v54_apply]
  rfl

/-- The index fed to the table lookup at row n: the row's label, 5 added if it is negative. -/
theorem wrap2 (x4 : (⟨S2000000, .i32⟩ : BufTy).Contents (Elt Ideal)) (n : Fin 2000000) :
    val_main_v101 (F := Ideal) x4 (ix2 n (0 : Fin 1)) = wrap (x4 (ix1 n)) := by
  rw [val_main_v101_apply, val_main_v100_apply, val_main_v97_apply, val_main_v99_apply, val_main_v96_apply,
    val_main_v98_apply, val_main_c_28_apply, val_main_c_29_apply]
  have e1 : idx_main_v101 (ix2 n (0 : Fin 1)) = ix1 n :=
    funext fun a => Fin.ext (by match a with | ⟨0, _⟩ => rfl)
  rw [e1]
  rfl

/-- The row's class weight at entry (n, q): the table's entry at the row's label wrapped and clamped, the same in
    every column of the row. -/
theorem w2 (x3 : (⟨S5, .f32⟩ : BufTy).Contents (Elt Ideal)) (x4 : (⟨S2000000, .i32⟩ : BufTy).Contents (Elt Ideal))
    (n : Fin 2000000) (q : Fin 3) :
    val_main_v104 (F := Ideal) x3 x4 (ix2 n q) = look (fun k => x3 (ix1 k)) (x4 (ix1 n)) := by
  rw [val_main_v104_apply, val_main_v103_apply]
  have e : idx_main_v103 (idx_main_v104 (ix2 n q)) = ix1 n :=
    funext fun a => Fin.ext (by match a with | ⟨0, _⟩ => rfl)
  rw [e]
  unfold val_main_v102
  -- the lookup reads the table at the start index of row n, read signed and clamped into 0..4
  refine (Cert.LibVecGather.gather_vec_apply (N := 5) (E := 2000000) (by decide) _ x3 (val_main_v101 (F := Ideal) x4) n).trans ?_
  unfold look
  refine congrArg x3 (congrArg (ix1 (n := 5)) (Fin.ext ?_))
  show min (BitVec.toInt (val_main_v101 (F := Ideal) x4 (ix2 n (0 : Fin 1)))).toNat (5 - 1)
    = min (wrap (x4 (ix1 n))).toInt.toNat (5 - 1)
  rw [wrap2]

/-- ONE ENTRY of the weighted loss array: the column's loss in the arrangement with the logistic spelled out, the
    square as a power and the sign on the balance, times the row's class weight. -/
theorem entry2 (x1 : (⟨S2000000x3, .f32⟩ : BufTy).Contents (Elt Ideal)) (x3 : (⟨S5, .f32⟩ : BufTy).Contents (Elt Ideal))
    (x4 x5 : (⟨S2000000, .i32⟩ : BufTy).Contents (Elt Ideal)) (n : Fin 2000000) (q : Fin 3) :
    val_main_v105 (F := Ideal) x1 x3 x4 x5 (ix2 n q)
      = termPow (x1 (ix2 n q)) (IntOp.cmpi .slt (BitVec.ofNat 32 q.val) (x5 (ix1 n)))
          (look (fun k => x3 (ix1 k)) (x4 (ix1 n))) := by
  rw [val_main_v105_apply, val_main_v95_apply, val_main_v94_apply, val_main_v93_apply, val_main_v92_apply,
    val_main_v78_apply, val_main_v77_apply, val_main_v76_apply, val_main_cst_21_apply,
    val_main_call3_v0_apply, val_main_cst_22_apply, val_main_call3_v1_apply, val_main_cst_23_apply,
    val_main_v75_apply, val_main_v74_apply, val_main_cst_20_apply, val_main_v73_apply, val_main_v72_apply,
    val_main_cst_19_apply, val_main_v71_apply, val_main_v68_apply, val_main_v67_apply, val_main_cst_17_apply,
    val_main_v70_apply, val_main_v69_apply, val_main_cst_18_apply,
    val_main_v91_apply, val_main_v82_apply, val_main_v81_apply, val_main_v80_apply, val_main_v79_apply,
    val_main_cst_24_apply, val_main_v90_apply, val_main_v84_apply, val_main_v83_apply, val_main_cst_25_apply,
    val_main_v89_apply, val_main_v88_apply, val_main_v86_apply, val_main_v85_apply, val_main_cst_26_apply,
    val_main_v87_apply, val_main_cst_27_apply,
    w2, ind2, p2]
  unfold termPow
  simp only [Ideal.mulf_def, Ideal.addf_def, Ideal.subf_def, Ideal.hostNegf_def, Ideal.negf_def, Ideal.hostPowf_def,
    Ideal.hostUnary_log_def, Ideal.ofBits_def, cmpf_ideal]

theorem task2 (x1 : (⟨S2000000x3, .f32⟩ : BufTy).Contents (Elt Ideal)) (x3 : (⟨S5, .f32⟩ : BufTy).Contents (Elt Ideal)) (x4 x5 : (⟨S2000000, .i32⟩ : BufTy).Contents (Elt Ideal))
    (h : InRange x4) :
    Cert.ReferenceIdeal.ReadP.val_main_v107 (F := Ideal) x1 x3 x4 x5
      = fun _ => meanLoss (K := 3) x1 x5 x4 x3 ((1 / 6000000 : ℝ) : EReal) := by
  funext i
  -- the result is the sum over every entry, started from zero, divided by the word 6,000,000
  rw [val_main_v107_apply, val_main_v106_apply, val_main_cst_30_apply, val_main_cst_31_apply]
  simp only [Ideal.hostDivf_def, Ideal.ofBits_def]
  -- zero drops out, the division is the product with the reciprocal, the sum over entries is rows then columns
  rw [Ideal.ofBits_zero_f32, zero_add, word_6e6, Ideal.div_coe (by norm_num), ValueIdx.sum_idx2]
  unfold meanLoss rowLoss
  refine congrArg (fun s : EReal => s * ((1 / 6000000 : ℝ) : EReal)) ?_
  refine Finset.sum_congr rfl fun n _ => Finset.sum_congr rfl fun q _ => ?_
  -- entry by entry: the two arrangements of the loss are one number, and on a label in 0..4 the lookup is the chain
  rw [entry2, termPow_eq, look_eq_pick _ _ (h (ix1 n)).1 (h (ix1 n)).2]

/-! ## The third task (the second three-column one) -/

/-- The indicator "column q is below the row's target", as a number, at entry (n, q): the column numbers 0, 1, 2 laid
    along a row and the targets laid along a column are compared entry by entry. -/
theorem ind3 (x6 : (⟨S2000000, .i32⟩ : BufTy).Contents (Elt Ideal)) (n : Fin 2000000) (q : Fin 3) :
    val_main_v120 (F := Ideal) x6 (ix2 n q) = ind (IntOp.cmpi .slt (BitVec.ofNat 32 q.val) (x6 (ix1 n))) := by
  rw [val_main_v120_apply, val_main_v119_apply, val_main_v117_apply, val_main_v115_apply, val_main_v114_apply,
    val_main_v118_apply, val_main_v116_apply]
  have e : idx_main_v116 (idx_main_v118 (ix2 n q)) = ix1 n :=
    funext fun a => Fin.ext (by match a with | ⟨0, _⟩ => rfl)
  rw [e]
  rfl

/-- The logistic of the logit at an entry, spelled 1 / (1 + exp (-x)). -/
theorem p3 (x2 : (⟨S2000000x3, .f32⟩ : BufTy).Contents (Elt Ideal)) (i : S2000000x3.Idx) :
    val_main_v113 (F := Ideal) x2 i
      = Ideal.div (Ideal.ofBits .f32 0x3F800000#32) (Ideal.ofBits .f32 0x3F800000#32 + Ideal.exp (-(x2 i))) := by
  rw [val_main_v113_apply, val_main_v112_apply, val_main_cst_33_apply, val_main_v111_apply, val_main_v110_apply,
    val_main_cst_32_apply, val_main_v109_apply, val_main_v108_apply]
  rfl

/-- The index fed to the table lookup at row n: the row's label, 5 added if it is negative. -/
theorem wrap3 (x4 : (⟨S2000000, .i32⟩ : BufTy).Contents (Elt Ideal)) (n : Fin 2000000) :
    val_main_v155 (F := Ideal) x4 (ix2 n (0 : Fin 1)) = wrap (x4 (ix1 n)) := by
  rw [val_main_v155_apply, val_main_v154_apply, val_main_v151_apply, val_main_v153_apply, val_main_v150_apply,
    val_main_v152_apply, val_main_c_45_apply, val_main_c_46_apply]
  have e1 : idx_main_v155 (ix2 n (0 : Fin 1)) = ix1 n :=
    funext fun a => Fin.ext (by match a with | ⟨0, _⟩ => rfl)
  rw [e1]
  rfl

/-- The row's class weight at entry (n, q): the table's entry at the row's label wrapped and clamped, the same in
    every column of the row. -/
theorem w3 (x3 : (⟨S5, .f32⟩ : BufTy).Contents (Elt Ideal)) (x4 : (⟨S2000000, .i32⟩ : BufTy).Contents (Elt Ideal))
    (n : Fin 2000000) (q : Fin 3) :
    val_main_v158 (F := Ideal) x3 x4 (ix2 n q) = look (fun k => x3 (ix1 k)) (x4 (ix1 n)) := by
  rw [val_main_v158_apply, val_main_v157_apply]
  have e : idx_main_v157 (idx_main_v158 (ix2 n q)) = ix1 n :=
    funext fun a => Fin.ext (by match a with | ⟨0, _⟩ => rfl)
  rw [e]
  unfold val_main_v156
  -- the lookup reads the table at the start index of row n, read signed and clamped into 0..4
  refine (Cert.LibVecGather.gather_vec_apply (N := 5) (E := 2000000) (by decide) _ x3 (val_main_v155 (F := Ideal) x4) n).trans ?_
  unfold look
  refine congrArg x3 (congrArg (ix1 (n := 5)) (Fin.ext ?_))
  show min (BitVec.toInt (val_main_v155 (F := Ideal) x4 (ix2 n (0 : Fin 1)))).toNat (5 - 1)
    = min (wrap (x4 (ix1 n))).toInt.toNat (5 - 1)
  rw [wrap3]

/-- ONE ENTRY of the weighted loss array: the column's loss in the arrangement with the logistic spelled out, the
    square as a power and the sign on the balance, times the row's class weight. -/
theorem entry3 (x2 : (⟨S2000000x3, .f32⟩ : BufTy).Contents (Elt Ideal)) (x3 : (⟨S5, .f32⟩ : BufTy).Contents (Elt Ideal))
    (x4 x6 : (⟨S2000000, .i32⟩ : BufTy).Contents (Elt Ideal)) (n : Fin 2000000) (q : Fin 3) :
    val_main_v159 (F := Ideal) x2 x3 x4 x6 (ix2 n q)
      = termPow (x2 (ix2 n q)) (IntOp.cmpi .slt (BitVec.ofNat 32 q.val) (x6 (ix1 n)))
          (look (fun k => x3 (ix1 k)) (x4 (ix1 n))) := by
  rw [val_main_v159_apply, val_main_v149_apply, val_main_v148_apply, val_main_v147_apply, val_main_v146_apply,
    val_main_v132_apply, val_main_v131_apply, val_main_v130_apply, val_main_cst_38_apply,
    val_main_call5_v0_apply, val_main_cst_39_apply, val_main_call5_v1_apply, val_main_cst_40_apply,
    val_main_v129_apply, val_main_v128_apply, val_main_cst_37_apply, val_main_v127_apply, val_main_v126_apply,
    val_main_cst_36_apply, val_main_v125_apply, val_main_v122_apply, val_main_v121_apply, val_main_cst_34_apply,
    val_main_v124_apply, val_main_v123_apply, val_main_cst_35_apply,
    val_main_v145_apply, val_main_v136_apply, val_main_v135_apply, val_main_v134_apply, val_main_v133_apply,
    val_main_cst_41_apply, val_main_v144_apply, val_main_v138_apply, val_main_v137_apply, val_main_cst_42_apply,
    val_main_v143_apply, val_main_v142_apply, val_main_v140_apply, val_main_v139_apply, val_main_cst_43_apply,
    val_main_v141_apply, val_main_cst_44_apply,
    w3, ind3, p3]
  unfold termPow
  simp only [Ideal.mulf_def, Ideal.addf_def, Ideal.subf_def, Ideal.hostNegf_def, Ideal.negf_def, Ideal.hostPowf_def,
    Ideal.hostUnary_log_def, Ideal.ofBits_def, cmpf_ideal]

theorem task3 (x2 : (⟨S2000000x3, .f32⟩ : BufTy).Contents (Elt Ideal)) (x3 : (⟨S5, .f32⟩ : BufTy).Contents (Elt Ideal)) (x4 x6 : (⟨S2000000, .i32⟩ : BufTy).Contents (Elt Ideal))
    (h : InRange x4) :
    Cert.ReferenceIdeal.ReadP.val_main_v161 (F := Ideal) x2 x3 x4 x6
      = fun _ => meanLoss (K := 3) x2 x6 x4 x3 ((1 / 6000000 : ℝ) : EReal) := by
  funext i
  -- the result is the sum over every entry, started from zero, divided by the word 6,000,000
  rw [val_main_v161_apply, val_main_v160_apply, val_main_cst_47_apply, val_main_cst_48_apply]
  simp only [Ideal.hostDivf_def, Ideal.ofBits_def]
  -- zero drops out, the division is the product with the reciprocal, the sum over entries is rows then columns
  rw [Ideal.ofBits_zero_f32, zero_add, word_6e6, Ideal.div_coe (by norm_num), ValueIdx.sum_idx2]
  unfold meanLoss rowLoss
  refine congrArg (fun s : EReal => s * ((1 / 6000000 : ℝ) : EReal)) ?_
  refine Finset.sum_congr rfl fun n _ => Finset.sum_congr rfl fun q _ => ?_
  -- entry by entry: the two arrangements of the loss are one number, and on a label in 0..4 the lookup is the chain
  rw [entry3, termPow_eq, look_eq_pick _ _ (h (ix1 n)).1 (h (ix1 n)).2]

end Cert.ReferenceIdeal.RefValue

end
-- ==== Proof.RefVal.lean ====
/-
  The reference's first result: the three tasks' means added left to right and divided by the word 3.0.
-/
import proofs.«416350_j25305947308583_2_alg».proof.Proof.RefVal1
import proofs.«416350_j25305947308583_2_alg».proof.Proof.RefVal23

noncomputable section

namespace Cert.ReferenceIdeal.RefValue

open Cert.ReferenceIdeal Cert.ReferenceIdeal.Gen Idealize.ShloMosaic Idealize.ShloMosaic.ValueIdx Cert.Coral

theorem total (x0 : (⟨S2000000x4, .f32⟩ : BufTy).Contents (Elt Ideal)) (x1 x2 : (⟨S2000000x3, .f32⟩ : BufTy).Contents (Elt Ideal)) (x3 : (⟨S5, .f32⟩ : BufTy).Contents (Elt Ideal))
    (x4 x5 x6 : (⟨S2000000, .i32⟩ : BufTy).Contents (Elt Ideal)) (h : InRange x4) :
    Cert.ReferenceIdeal.ReadP.val_main_v164 (F := Ideal) x0 x1 x2 x3 x4 x5 x6
      = fun _ => avg3 (meanLoss (K := 4) x0 x4 x4 x3 ((1 / 8000000 : ℝ) : EReal))
          (meanLoss (K := 3) x1 x5 x4 x3 ((1 / 6000000 : ℝ) : EReal))
          (meanLoss (K := 3) x2 x6 x4 x3 ((1 / 6000000 : ℝ) : EReal)) := by
  funext i
  rw [Cert.ReferenceIdeal.ReadP.val_main_v164_apply, Cert.ReferenceIdeal.ReadP.val_main_v163_apply,
    Cert.ReferenceIdeal.ReadP.val_main_v162_apply, task1 x0 x3 x4 h, task2 x1 x3 x4 x5 h, task3 x2 x3 x4 x6 h]
  rfl

end Cert.ReferenceIdeal.RefValue

end
-- ==== Proof.PreRange.lean ====
/-
  What the precondition says of the class labels: every entry of the first label array, read as a signed integer, is at
  least 0 and below 5. The precondition is a conjunction of "all" tests, each a reduction by "and" from 1 of a one-bit
  array; the conjunction being 1 makes each reduction 1, and a reduction by "and" that is 1 met 1 at every entry. The last
  two tests compare the label with 0 (at least) and with 5 (below).
-/
import proofs.«416350_j25305947308583_2_alg».proof.Pre_finite_inputs
import Idealize.ShloMosaic.Lib.ReduceAll
import Idealize.ShloMosaic.Lib.ValueIdx

noncomputable section

namespace Cert.Coral

open Idealize.ShloMosaic Idealize.ShloMosaic.ValueIdx Cert.Pre_finite_inputs

/-- The rank-0 shape has one index. -/
instance subsingleton_scalar_idx : Subsingleton S_.Idx := ⟨fun _ _ => funext fun d => d.elim0⟩

variable {F : FTy → Type} [FloatOps F] [Cert.Pre_finite_inputs.Facts]

/-- Under the precondition every class label lies in 0..4. -/
theorem labels_in_range (a0 : FVec F S2000000x4 .f32) (a1 a2 : FVec F S2000000x3 .f32) (a3 : FVec F S5 .f32)
    (t4 t5 t6 : IVec S2000000 32)
    (h : Cert.Pre_finite_inputs.fn (F := F) a0 a1 a2 a3 t4 t5 t6 = fun _ => 1#1) (i : S2000000.Idx) :
    IntOp.cmpi .sge (t4 i) 0#32 = 1#1 ∧ IntOp.cmpi .slt (t4 i) 5#32 = 1#1 := by
  have h0 := congrFun h ix0
  dsimp only [Cert.Pre_finite_inputs.fn, Cert.Pre_finite_inputs.fn_part1] at h0
  obtain ⟨h1, h25⟩ := IntOp.andi_eq_one.1 h0
  obtain ⟨_, h21⟩ := IntOp.andi_eq_one.1 h1
  exact ⟨Host.reduce_andi_all _ _ _ _ _ h21 i, Host.reduce_andi_all _ _ _ _ _ h25 i⟩

end Cert.Coral

end
-- ==== Proof.Claims.lean ====
/-
  The five claims.

  The three frames are the programs' runs with the results dropped. The idealization named two reciprocals, 1/8000000
  and 1/6000000 (the second twice): each is the value the table gives its name. For the equivalence: the idealized
  kernel's four results are the average of the three tasks' mean losses and the three means (the kernel's run, read), and
  so are the reference's, once every class label is known to lie in 0..4 — which the precondition says — so that the
  reference's table lookup at the wrapped, clamped label is the entry the kernel's comparison chain picks.
-/
import proofs.«416350_j25305947308583_2_alg».proof.Defs
import proofs.«416350_j25305947308583_2_alg».proof.Proof.Gen.Kernel
import proofs.«416350_j25305947308583_2_alg».proof.Proof.Gen.Kernel.Frame
import proofs.«416350_j25305947308583_2_alg».proof.Proof.Gen.KernelIdeal
import proofs.«416350_j25305947308583_2_alg».proof.Proof.Gen.KernelIdeal.Frame
import proofs.«416350_j25305947308583_2_alg».proof.Proof.Gen.ReferenceIdeal
import proofs.«416350_j25305947308583_2_alg».proof.Proof.Gen.Pre_finite_inputs
import proofs.«416350_j25305947308583_2_alg».proof.Proof.KRun
import proofs.«416350_j25305947308583_2_alg».proof.Proof.RefVal
import proofs.«416350_j25305947308583_2_alg».proof.Proof.PreRange

noncomputable section

namespace Cert.Proof.Claims

open Idealize.ShloMosaic Idealize.ShloMosaic.TcCoe Idealize.SL.Sem Cert.Coral

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2.2)
    (Cert.ReferenceIdeal.ValueP.run (F := Ideal) m ρ)

/-- Each named reciprocal is the value the table gives its name. -/
theorem preserves : Cert.preserves_Kernel_KernelIdeal :=
  ⟨IdealRules.named_const.statement Cert.KernelIdeal.κ "inv_8000000" .f32 0x340637BD#32 ((1 / 8000000 : ℝ) : EReal) rfl,
    IdealRules.named_const.statement Cert.KernelIdeal.κ "inv_6000000" .f32 0x3432F4FC#32 ((1 / 6000000 : ℝ) : EReal) rfl,
    IdealRules.named_const.statement Cert.KernelIdeal.κ "inv_6000000" .f32 0x3432F4FC#32 ((1 / 6000000 : ℝ) : EReal) rfl⟩

/-- Both programs end with the average of the three means and the three means. -/
theorem algebraic : Cert.algebraic_KernelIdeal_ReferenceIdeal := by
  intro m ρ m' ρ' hpre hagree
  refine ⟨fun c _ => avg3 (Cert.KernelIdeal.Pieces.mean0 m c) (Cert.KernelIdeal.Pieces.mean1 m c) (Cert.KernelIdeal.Pieces.mean2 m c),
    fun c _ => Cert.KernelIdeal.Pieces.mean0 m c, fun c _ => Cert.KernelIdeal.Pieces.mean1 m c,
    fun c _ => Cert.KernelIdeal.Pieces.mean2 m c, Cert.KernelIdeal.Pieces.run m ρ, ?_⟩
  refine (θ_run Cert.ReferenceIdeal.defs _ _).mono (fun _ h c => ?_) (Cert.ReferenceIdeal.ValueP.run (F := Ideal) m' ρ')
  obtain ⟨e0, e1, e2, e3, rest⟩ := h c
  obtain ⟨a0, a1, a2, a3, a4, a5, a6⟩ := hagree c
  have hr : InRange (m' ((c.tc : Thread Cert.ReferenceIdeal.nD Cert.ReferenceIdeal.τ).loc Cert.ReferenceIdeal.main_arg4)) := by
    rw [a4]
    exact fun i => labels_in_range _ _ _ _ _ _ _ (hpre c) i
  refine ⟨e0.trans ?_, e1.trans ?_, e2.trans ?_, e3.trans ?_, rest⟩
  · rw [Cert.ReferenceIdeal.ReadP.val_main_v164_eq, Cert.ReferenceIdeal.RefValue.total _ _ _ _ _ _ _ hr, a0, a1, a2, a3, a4, a5, a6]
    rfl
  · rw [Cert.ReferenceIdeal.ReadP.val_main_v53_eq, Cert.ReferenceIdeal.RefValue.task1 _ _ _ hr, a0, a3, a4]
    rfl
  · rw [Cert.ReferenceIdeal.ReadP.val_main_v107_eq, Cert.ReferenceIdeal.RefValue.task2 _ _ _ _ hr, a1, a3, a4, a5]
    rfl
  · rw [Cert.ReferenceIdeal.ReadP.val_main_v161_eq, Cert.ReferenceIdeal.RefValue.task3 _ _ _ _ hr, a2, a3, a4, a6]
    rfl

end Cert.Proof.Claims

end
-- ==== Proof.lean ====
/-
  The certificate of the multi-task ordinal focal loss: a kernel that, over 500 blocks of 4,000 rows, sums each task's
  weighted loss over columns and rows, accumulates the block sums and scales the total by the reciprocal of the task's
  number of entries, against the reference's mean over all entries. On the extended reals both give, for each task, the
  sum over all rows and columns of the column's loss times the reciprocal of the number of entries, and their average;
  the class weight of a row is the same table entry on both sides because every class label lies in 0..4 (the
  precondition). The claims are proved in Proof/Claims.lean; here they are assembled behind the programs' stated facts.
-/
import proofs.«416350_j25305947308583_2_alg».proof.Defs
import proofs.«416350_j25305947308583_2_alg».proof.Proof.Gen.Kernel
import proofs.«416350_j25305947308583_2_alg».proof.Proof.Gen.Kernel.Skeleton
import proofs.«416350_j25305947308583_2_alg».proof.Proof.Gen.Kernel.Launch
import proofs.«416350_j25305947308583_2_alg».proof.Proof.Gen.Kernel.Points
import proofs.«416350_j25305947308583_2_alg».proof.Proof.Gen.Kernel.Frame
import proofs.«416350_j25305947308583_2_alg».proof.Proof.Gen.KernelIdeal
import proofs.«416350_j25305947308583_2_alg».proof.Proof.Gen.KernelIdeal.Skeleton
import proofs.«416350_j25305947308583_2_alg».proof.Proof.Gen.KernelIdeal.Launch
import proofs.«416350_j25305947308583_2_alg».proof.Proof.Gen.KernelIdeal.Points
import proofs.«416350_j25305947308583_2_alg».proof.Proof.Gen.KernelIdeal.Frame
import proofs.«416350_j25305947308583_2_alg».proof.Proof.Gen.ReferenceIdeal
import proofs.«416350_j25305947308583_2_alg».proof.Proof.Gen.Pre_finite_inputs
import proofs.«416350_j25305947308583_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
